-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x512 : Shape := ⟨3, ![8, 2048, 512]⟩
abbrev S512x1536 : Shape := ⟨2, ![512, 1536]⟩
abbrev S_ : Shape := ⟨0, ![]⟩

class Facts : Prop where
  bcast_S_S8x2048x512 : S_.BroadcastsInDim S8x2048x512 (![] : Fin 0 → Fin S8x2048x512.rank)
  reducesTo_S8x2048x512_S_d0_1_2 : S8x2048x512.ReducesTo [0, 1, 2] S_
  h_S_ : 0 < S_.numel
  bcast_S_S512x1536 : S_.BroadcastsInDim S512x1536 (![] : Fin 0 → Fin S512x1536.rank)
  reducesTo_S512x1536_S_d0_1 : S512x1536.ReducesTo [0, 1] S_

variable [Facts]

def fn {F : FTy → Type} [FloatOps F] (main_arg0 : FVec F S8x2048x512 .f32) (main_arg1 : FVec F S512x1536 .f32) : IVec S_ 1 :=
  let main_v0 : FVec F S8x2048x512 .f32 := Host.absf main_arg0
  let main_cst : FVec F S_ .f32 := constant S_ .f32 0x7F800000#32
  let main_v1 : FVec F S8x2048x512 .f32 := broadcastInDim S8x2048x512 ![] bcast_S_S8x2048x512 main_cst
  let main_v2 : IVec S8x2048x512 1 := cmpf .olt main_v0 main_v1
  let main_c : IVec S_ 1 := constantI S_ 1 1#1
  let main_v3 : IVec S_ 1 := (fun x v => Host.reduce IntOp.andi x v reducesTo_S8x2048x512_S_d0_1_2 h_S_) main_v2 main_c
  let main_v4 : FVec F S512x1536 .f32 := Host.absf main_arg1
  let main_cst_0 : FVec F S_ .f32 := constant S_ .f32 0x7F800000#32
  let main_v5 : FVec F S512x1536 .f32 := broadcastInDim S512x1536 ![] bcast_S_S512x1536 main_cst_0
  let main_v6 : IVec S512x1536 1 := cmpf .olt main_v4 main_v5
  let main_c_1 : IVec S_ 1 := constantI S_ 1 1#1
  let main_v7 : IVec S_ 1 := (fun x v => Host.reduce IntOp.andi x v reducesTo_S512x1536_S_d0_1 h_S_) main_v6 main_c_1
  let main_v8 : IVec S_ 1 := andi main_v3 main_v7
  main_v8
-- ==== Kernel.lean ====
abbrev S8x2048x512 : Shape := ⟨3, ![8, 2048, 512]⟩
abbrev S512x1536 : Shape := ⟨2, ![512, 1536]⟩
abbrev S16384x512 : Shape := ⟨2, ![16384, 512]⟩
abbrev S1024x512 : Shape := ⟨2, ![1024, 512]⟩
abbrev S512x512 : Shape := ⟨2, ![512, 512]⟩
abbrev S1x1024x512 : Shape := ⟨3, ![1, 1024, 512]⟩
abbrev S1x2048x512 : Shape := ⟨3, ![1, 2048, 512]⟩
abbrev S2048x512 : Shape := ⟨2, ![2048, 512]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 11
  | .vmem => 17
  | .smem => 0
  | _ => 0

abbrev bufTy : (tb : Table) → Fin (tcTables nBuf tb) → BufTy
  | .hbm, ⟨0, _⟩ => ⟨S8x2048x512, .f32⟩
  | .hbm, ⟨1, _⟩ => ⟨S512x1536, .f32⟩
  | .hbm, ⟨2, _⟩ => ⟨S512x1536, .bf16⟩
  | .hbm, ⟨3, _⟩ => ⟨S16384x512, .f32⟩
  | .hbm, ⟨4, _⟩ => ⟨S16384x512, .bf16⟩
  | .hbm, ⟨5, _⟩ => ⟨S16384x512, .bf16⟩
  | .hbm, ⟨6, _⟩ => ⟨S16384x512, .bf16⟩
  | .hbm, ⟨7, _⟩ => ⟨S8x2048x512, .bf16⟩
  | .hbm, ⟨8, _⟩ => ⟨S8x2048x512, .bf16⟩
  | .hbm, ⟨9, _⟩ => ⟨S8x2048x512, .bf16⟩
  | .hbm, ⟨10, _⟩ => ⟨S8x2048x512, .f32⟩
  | .local _ .vmem, ⟨0, _⟩ => ⟨S1024x512, .f32⟩
  | .local _ .vmem, ⟨1, _⟩ => ⟨S1024x512, .f32⟩
  | .local _ .vmem, ⟨2, _⟩ => ⟨S512x1536, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1x1024x512, .bf16⟩
  | .local _ .vmem, ⟨10, _⟩ => ⟨S1x1024x512, .bf16⟩
  | .local _ .vmem, ⟨11, _⟩ => ⟨S1x2048x512, .bf16⟩
  | .local _ .vmem, ⟨12, _⟩ => ⟨S1x2048x512, .bf16⟩
  | .local _ .vmem, ⟨13, _⟩ => ⟨S1x2048x512, .bf16⟩
  | .local _ .vmem, ⟨14, _⟩ => ⟨S1x2048x512, .bf16⟩
  | .local _ .vmem, ⟨15, _⟩ => ⟨S1x1024x512, .f32⟩
  | .local _ .vmem, ⟨16, _⟩ => ⟨S1x1024x512, .f32⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![8, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1024x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  bitsLt_bf16_f32 : FTy.bits .bf16 < FTy.bits .f32
  shapeCasts_S8x2048x512_S16384x512 : S8x2048x512.ShapeCasts S16384x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x1536_S512x1536_0_0 : ∀ a, (![0, 0] : Fin 2 → Nat) a + S512x1536.size a ≤ S512x1536.size a
  h_S512x1536 : 0 < S512x1536.numel
  shapeCasts_S512x1536_S512x1536 : S512x1536.ShapeCasts S512x1536
  slices_S512x1536_o0_0_S512x512 : S512x1536.Slices ![0, 0] S512x512
  slices_S512x1536_o0_512_S512x512 : S512x1536.Slices ![0, 512] S512x512
  slices_S512x1536_o0_1024_S512x512 : S512x1536.Slices ![0, 1024] S512x512
  packedbf16_S1024x512_S1024x512_0_0 : (Rect.unit (s := S1024x512) ![0, 0] S1024x512.size inb_S1024x512_S1024x512_0_0).PackedRows (EltTy.packing .bf16)
  shapeCasts_S16384x512_S8x2048x512 : S16384x512.ShapeCasts S8x2048x512
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  reduces_S1024x2048_S1024 : S1024x2048.Reduces [1] S1024
  shapeCasts_S1024_S1024x1 : S1024.ShapeCasts S1024x1
  broadcasts_S1024x1_S1024x2048 : S1024x1.Broadcasts S1024x2048
  broadcasts_S1024x1_S1024x512 : S1024x1.Broadcasts S1024x512
  shapeCasts_S1024x512_S1x1024x512 : S1024x512.ShapeCasts S1x1024x512
  dot_S1024x512_S512x512_S1024x512_1_0_0_1_n_n_wf : DotDims.WF S1024x512 S512x512 S1024x512 [1] [0] [0] [1] [] []
  dot_S1024x512_S2048x512_S1024x2048_1_1_0_0_n_n_wf : DotDims.WF S1024x512 S2048x512 S1024x2048 [1] [1] [0] [0] [] []
  dot_S1024x2048_S2048x512_S1024x512_1_0_0_1_n_n_wf : DotDims.WF S1024x2048 S2048x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x512.size a
  hwx0_0 : ∀ i : grid0.Coords, EltTy.bits .f32 = 32 ∨ (Rect.block (s := S16384x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1536.size a ≤ S512x1536.size a
  hwx0_1 : ∀ i : grid0.Coords, EltTy.bits .bf16 = 32 ∨ (Rect.block (s := S512x1536) S512x1536.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S16384x512.size a
  hwx0_2 : ∀ i : grid0.Coords, EltTy.bits .bf16 = 32 ∨ (Rect.block (s := S16384x512) S1024x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S16384x512.size a
  hwx0_3 : ∀ i : grid0.Coords, EltTy.bits .bf16 = 32 ∨ (Rect.block (s := S16384x512) S1024x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S16384x512.size a
  hwx0_4 : ∀ i : grid0.Coords, EltTy.bits .bf16 = 32 ∨ (Rect.block (s := S16384x512) S1024x512.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x512.size a ≤ S8x2048x512.size a
  hwx1_0 : ∀ i : grid1.Coords, EltTy.bits .bf16 = 32 ∨ (Rect.block (s := S8x2048x512) S1x1024x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x512.size a ≤ S8x2048x512.size a
  hwx1_1 : ∀ i : grid1.Coords, EltTy.bits .bf16 = 32 ∨ (Rect.block (s := S8x2048x512) S1x2048x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x512.size a ≤ S8x2048x512.size a
  hwx1_2 : ∀ i : grid1.Coords, EltTy.bits .bf16 = 32 ∨ (Rect.block (s := S8x2048x512) S1x2048x512.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x512.size a ≤ S8x2048x512.size a
  hwx1_3 : ∀ i : grid1.Coords, EltTy.bits .f32 = 32 ∨ (Rect.block (s := S8x2048x512) S1x1024x512.size (cc1_transform_3 i) (hinb1_3 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x512_S2048x512_S1024x2048_1_1_0_0_n_n : DotDims S1024x512 S2048x512 S1024x2048 where
  lhsContracting := [1]
  rhsContracting := [1]
  lhsNonContracting := [0]
  rhsNonContracting := [0]
  lhsBatch := []
  rhsBatch := []
  wf := dot_S1024x512_S2048x512_S1024x2048_1_1_0_0_n_n_wf
def dot_S1024x2048_S2048x512_S1024x512_1_0_0_1_n_n : DotDims S1024x2048 S2048x512 S1024x512 where
  lhsContracting := [1]
  rhsContracting := [0]
  lhsNonContracting := [0]
  rhsNonContracting := [1]
  lhsBatch := []
  rhsBatch := []
  wf := dot_S1024x2048_S2048x512_S1024x512_1_0_0_1_n_n_wf

abbrev win0_0 : Pipeline.Window sig grid0 :=
  Pipeline.Window.ofSpec (Memref.whole main_v1) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1536.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1024x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1024x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_2) S1024x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v3) S1x1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1x2048x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x2048x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1x1024x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8x2048x512 : Shape := ⟨3, ![8, 2048, 512]⟩
abbrev S512x1536 : Shape := ⟨2, ![512, 1536]⟩
abbrev S8x2048x1536 : Shape := ⟨3, ![8, 2048, 1536]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 25
  | .vmem => 0
  | .smem => 0
  | _ => 0

abbrev bufTy : (tb : Table) → Fin (tcTables nBuf tb) → BufTy
  | .hbm, ⟨0, _⟩ => ⟨S8x2048x512, .f32⟩
  | .hbm, ⟨1, _⟩ => ⟨S512x1536, .f32⟩
  | .hbm, ⟨2, _⟩ => ⟨S8x2048x1536, .f32⟩
  | .hbm, ⟨3, _⟩ => ⟨S8x2048x512, .f32⟩
  | .hbm, ⟨4, _⟩ => ⟨S8x2048x512, .f32⟩
  | .hbm, ⟨5, _⟩ => ⟨S8x2048x512, .f32⟩
  | .hbm, ⟨6, _⟩ => ⟨S8x2048x2048, .f32⟩
  | .hbm, ⟨7, _⟩ => ⟨S_, .f32⟩
  | .hbm, ⟨8, _⟩ => ⟨S8x2048x2048, .f32⟩
  | .hbm, ⟨9, _⟩ => ⟨S8x2048x2048, .f32⟩
  | .hbm, ⟨10, _⟩ => ⟨S_, .f32⟩
  | .hbm, ⟨11, _⟩ => ⟨S8x2048, .f32⟩
  | .hbm, ⟨12, _⟩ => ⟨S_, .f32⟩
  | .hbm, ⟨13, _⟩ => ⟨S8x2048, .f32⟩
  | .hbm, ⟨14, _⟩ => ⟨S8x2048, .f32⟩
  | .hbm, ⟨15, _⟩ => ⟨S8x2048x1, .f32⟩
  | .hbm, ⟨16, _⟩ => ⟨S8x2048x2048, .f32⟩
  | .hbm, ⟨17, _⟩ => ⟨S8x2048x2048, .f32⟩
  | .hbm, ⟨18, _⟩ => ⟨S8x2048x2048, .f32⟩
  | .hbm, ⟨19, _⟩ => ⟨S_, .f32⟩
  | .hbm, ⟨20, _⟩ => ⟨S8x2048, .f32⟩
  | .hbm, ⟨21, _⟩ => ⟨S8x2048x1, .f32⟩
  | .hbm, ⟨22, _⟩ => ⟨S8x2048x2048, .f32⟩
  | .hbm, ⟨23, _⟩ => ⟨S8x2048x2048, .f32⟩
  | .hbm, ⟨24, _⟩ => ⟨S8x2048x512, .f32⟩
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]

class Facts₀ : Prop where
  slices_S8x2048x1536_S8x2048x512_0_0_0 : S8x2048x1536.Slices ![0, 0, 0] S8x2048x512
  slices_S8x2048x1536_S8x2048x512_0_0_512 : S8x2048x1536.Slices ![0, 0, 512] S8x2048x512
  slices_S8x2048x1536_S8x2048x512_0_0_1024 : S8x2048x1536.Slices ![0, 0, 1024] S8x2048x512
  bcast_S_S8x2048x2048 : S_.BroadcastsInDim S8x2048x2048 (![] : Fin 0 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x512_S512x1536_S8x2048x1536_2_0_01_1_n_n_wf : DotDims.WF S8x2048x512 S512x1536 S8x2048x1536 [2] [0] [0, 1] [1] [] []
  dot_S8x2048x512_S8x2048x512_S8x2048x2048_2_2_1_1_0_0_wf : DotDims.WF S8x2048x512 S8x2048x512 S8x2048x2048 [2] [2] [1] [1] [0] [0]
  dot_S8x2048x2048_S8x2048x512_S8x2048x512_2_1_1_2_0_0_wf : DotDims.WF S8x2048x2048 S8x2048x512 S8x2048x512 [2] [1] [1] [2] [0] [0]

variable [Facts₀]

def dot_S8x2048x512_S512x1536_S8x2048x1536_2_0_01_1_n_n : DotDims S8x2048x512 S512x1536 S8x2048x1536 where
  lhsContracting := [2]
  rhsContracting := [0]
  lhsNonContracting := [0, 1]
  rhsNonContracting := [1]
  lhsBatch := []
  rhsBatch := []
  wf := dot_S8x2048x512_S512x1536_S8x2048x1536_2_0_01_1_n_n_wf
def dot_S8x2048x512_S8x2048x512_S8x2048x2048_2_2_1_1_0_0 : DotDims S8x2048x512 S8x2048x512 S8x2048x2048 where
  lhsContracting := [2]
  rhsContracting := [2]
  lhsNonContracting := [1]
  rhsNonContracting := [1]
  lhsBatch := [0]
  rhsBatch := [0]
  wf := dot_S8x2048x512_S8x2048x512_S8x2048x2048_2_2_1_1_0_0_wf
def dot_S8x2048x2048_S8x2048x512_S8x2048x512_2_1_1_2_0_0 : DotDims S8x2048x2048 S8x2048x512 S8x2048x512 where
  lhsContracting := [2]
  rhsContracting := [1]
  lhsNonContracting := [1]
  rhsNonContracting := [2]
  lhsBatch := [0]
  rhsBatch := [0]
  wf := dot_S8x2048x2048_S8x2048x512_S8x2048x512_2_1_1_2_0_0_wf

class Facts : Prop extends Facts₀ where

variable [Facts]
-- ==== Proof.Spec.lean ====
/-
  The mathematics of this certificate, stated once over the extended reals and explicit coordinates.

  Inputs: `x : [8, 2048, 512]` (batch, position, feature) and the fused projection weight `w : [512, 1536]`,
  whose three column blocks of width 512 feed the queries, the keys and the values.

  * `qkv x w p b n d = ∑ e, x[b, n, e] · w[e, 512·p + d]` — the projection, block `p` (0 queries, 1 keys, 2 values).
  * The kernel scales the QUERIES by the constant `scale` before the logits; the reference scales the LOGITS by the
    same constant afterwards: `∑ e, (q·scale)·k` against `(∑ e, q·k)·scale`.
  * Both subtract the row maximum, exponentiate and normalise by the row sum; the kernel divides the weighted sum of
    the values by the row sum, the reference divides each weight first and then sums.
  The two forms agree wherever every entry of `x` and `w` is a real number (module `Algebra`).
-/
import Idealize.ShloMosaic.PureOps.Ideal
import Idealize.ShloMosaic.Lib.ValueIdx

noncomputable section

namespace Cert.Spec

open Idealize.ShloMosaic Idealize.ShloMosaic.ValueIdx

/-- batch × position × feature: the shape of `x`, of the projected queries, keys and values, and of the result. -/
abbrev S3 : Shape := ⟨3, ![8, 2048, 512]⟩
/-- The fused projection weight. -/
abbrev SW : Shape := ⟨2, ![512, 1536]⟩
/-- `x` with batch and position flattened into one row axis of 8·2048 = 16384 rows. -/
abbrev S2 : Shape := ⟨2, ![16384, 512]⟩

/-- The softmax temperature both programs use: the binary32 number nearest 512^(-1/2), the same word on both sides. -/
def scale : EReal := Ideal.ofBits .f32 0x3D3504F3#32

/-- Column `d` of block `p` of the fused weight. -/
def col (p : Fin 3) (d : Fin 512) : Fin 1536 := ⟨512 * p.val + d.val, by omega⟩

/-- The projection: row `(b, n)` of `x` against column `d` of block `p` of `w`. -/
def qkv (x : S3.Idx → EReal) (w : SW.Idx → EReal) (p : Fin 3) (b : Fin 8) (n : Fin 2048) (d : Fin 512) : EReal :=
  ∑ e : Fin 512, x (ix3 b n e) * w (ix2 e (col p d))

/-! ## The kernel's form -/

/-- The first launch on flattened rows: block `p` of the projection at row `i 0`, column `i 1`. -/
def projFlat (p : Fin 3) (xf : S2.Idx → EReal) (wb : SW.Idx → EReal) : S2.Idx → EReal := fun i =>
  ∑ e : Fin 512, xf (ix2 (i 0) e) * wb (ix2 e (col p (i 1)))

/-- The queries leave the first launch already scaled. -/
def projFlatQ (xf : S2.Idx → EReal) (wb : SW.Idx → EReal) : S2.Idx → EReal := fun i => projFlat 0 xf wb i * scale

/-- The scaled queries, the keys and the values as arrays over batch × position × feature. -/
def qArr (x : S3.Idx → EReal) (w : SW.Idx → EReal) : S3.Idx → EReal := fun i => qkv x w 0 (i 0) (i 1) (i 2) * scale
def kArr (x : S3.Idx → EReal) (w : SW.Idx → EReal) : S3.Idx → EReal := fun i => qkv x w 1 (i 0) (i 1) (i 2)
def vArr (x : S3.Idx → EReal) (w : SW.Idx → EReal) : S3.Idx → EReal := fun i => qkv x w 2 (i 0) (i 1) (i 2)

/-- The second launch's logits from any queries and keys: row `i` against row `j` within batch `b`. -/
def logitK (q k : S3.Idx → EReal) (b : Fin 8) (i j : Fin 2048) : EReal :=
  ∑ e : Fin 512, q (ix3 b i e) * k (ix3 b j e)

/-- The row maximum of the logits, folded from -∞. -/
def rowMaxK (q k : S3.Idx → EReal) (b : Fin 8) (i : Fin 2048) : EReal :=
  (Finset.univ : Finset (Fin 2048)).fold max ⊥ (fun j => logitK q k b i j)

/-- The unnormalised weights. -/
def expK (q k : S3.Idx → EReal) (b : Fin 8) (i j : Fin 2048) : EReal :=
  Ideal.exp (logitK q k b i j - rowMaxK q k b i)

/-- The second launch: the weighted sum of the values divided by the row sum of the weights. -/
def attnK (q k v : S3.Idx → EReal) : S3.Idx → EReal := fun idx =>
  Ideal.div (∑ j : Fin 2048, expK q k (idx 0) (idx 1) j * v (ix3 (idx 0) j (idx 2)))
    (∑ j : Fin 2048, expK q k (idx 0) (idx 1) j)

/-! ## The reference's form -/

/-- The reference's logits: unscaled queries against keys, the product scaled. -/
def logitR (x : S3.Idx → EReal) (w : SW.Idx → EReal) (b : Fin 8) (i j : Fin 2048) : EReal :=
  (∑ e : Fin 512, qkv x w 0 b i e * qkv x w 1 b j e) * scale

def rowMaxR (x : S3.Idx → EReal) (w : SW.Idx → EReal) (b : Fin 8) (i : Fin 2048) : EReal :=
  (Finset.univ : Finset (Fin 2048)).fold max ⊥ (fun j => logitR x w b i j)

def expR (x : S3.Idx → EReal) (w : SW.Idx → EReal) (b : Fin 8) (i j : Fin 2048) : EReal :=
  Ideal.exp (logitR x w b i j - rowMaxR x w b i)

def sumR (x : S3.Idx → EReal) (w : SW.Idx → EReal) (b : Fin 8) (i : Fin 2048) : EReal :=
  ∑ j : Fin 2048, expR x w b i j

/-- The reference's result: each weight divided by its row sum, then the weighted sum of the values. -/
def RG (x : S3.Idx → EReal) (w : SW.Idx → EReal) : S3.Idx → EReal := fun idx =>
  ∑ j : Fin 2048, Ideal.div (expR x w (idx 0) (idx 1) j) (sumR x w (idx 0) (idx 1)) * qkv x w 2 (idx 0) j (idx 2)

end Cert.Spec

end
-- ==== Proof.Region0.lean ====
import proofs.«414263_j11785390260643_3_alg».proof.Proof.Gen.KernelIdeal.Frame
import proofs.«414263_j11785390260643_3_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Region0

open Cert.KernelIdeal Cert.KernelIdeal.Gen Cert.Spec
open Idealize.ShloMosaic Idealize.ShloMosaic.TcCoe Idealize.SL.Sem Idealize.ShloMosaic.ValueIdx

variable (V : (c : Dev nD) → (b : Ref sig .tc) → Buf (Elt Ideal) ((c : Thread nD τ).loc b))

/-! # The first launch: the fused projection

The launch computes, for the flattened input `x : [16384, 512]` and the fused weight `w : [512, 1536]`, the three
arrays `q, k, v : [16384, 512]` with `k[n, d] = ∑ e, x[n, e] · w[e, 512 + d]`, `v[n, d] = ∑ e, x[n, e] · w[e, 1024 + d]`
and `q[n, d] = (∑ e, x[n, e] · w[e, d]) · scale`: one matrix product per column block of the weight, the queries'
multiplied by the softmax temperature. Over the extended reals nothing is rounded, so each entry is exactly that sum.
The proof reads one entry of what the body stores, then places each grid point's block of 1024 rows in its array. -/
/-! ## The projection's contraction read at an index

The first launch multiplies a block of 1024 rows of the flattened input by a 512-column block of the fused weight:
row axis 0 of the left operand and column axis 1 of the right one survive, axis 1 of the left and axis 0 of the
right are contracted. The four lemmas below say which coordinate of each operand index is which. -/

/-- The left operand's row is the output's row. -/
theorem dot_lhs_0 (i : S1024x512.Idx) (q : dot_S1024x512_S512x512_S1024x512_1_0_0_1_n_n.contr.Idx) :
    (dot_S1024x512_S512x512_S1024x512_1_0_0_1_n_n.lhsIdx i q 0).val = (i 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl
/-- The left operand's column is the contraction coordinate. -/
theorem dot_lhs_1 (i : S1024x512.Idx) (q : dot_S1024x512_S512x512_S1024x512_1_0_0_1_n_n.contr.Idx) :
    (dot_S1024x512_S512x512_S1024x512_1_0_0_1_n_n.lhsIdx i q 1).val = (q ⟨0, by decide⟩).val :=
  dot_S1024x512_S512x512_S1024x512_1_0_0_1_n_n.lhsIdx_val_of_single rfl i q
/-- The right operand's row is the contraction coordinate. -/
theorem dot_rhs_0 (i : S1024x512.Idx) (q : dot_S1024x512_S512x512_S1024x512_1_0_0_1_n_n.contr.Idx) :
    (dot_S1024x512_S512x512_S1024x512_1_0_0_1_n_n.rhsIdx i q 0).val = (q ⟨0, by decide⟩).val :=
  dot_S1024x512_S512x512_S1024x512_1_0_0_1_n_n.rhsIdx_val_of_single rfl i q
/-- The right operand's column is the output's column. -/
theorem dot_rhs_1 (i : S1024x512.Idx) (q : dot_S1024x512_S512x512_S1024x512_1_0_0_1_n_n.contr.Idx) :
    (dot_S1024x512_S512x512_S1024x512_1_0_0_1_n_n.rhsIdx i q 1).val = (i 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl

/-- The contraction into the zero accumulator at row `r`, column `d`: the sum over `e` of the left operand at
    `(r, e)` times the right operand at `(e, d)`. -/
theorem dot_apply (a : FVec Ideal S1024x512 .bf16) (b : FVec Ideal S512x512 .bf16) (r : Fin 1024) (d : Fin 512) :
    matmul (F := Ideal) dot_S1024x512_S512x512_S1024x512_1_0_0_1_n_n none a b (constant (F := Ideal) S1024x512 .f32 0x00000000#32) (ix2 r d)
      = ∑ e : Fin 512, a (ix2 r e) * b (ix2 e d) := by
  simp only [matmul]
  rw [Ideal.matmul_constant_zero_apply, ← Equiv.sum_comp (ValueIdx.contrEquiv1 dot_S1024x512_S512x512_S1024x512_1_0_0_1_n_n 512 rfl rfl).symm]
  refine Finset.sum_congr rfl fun k _ => ?_
  have hk := ValueIdx.contrEquiv1_symm_val dot_S1024x512_S512x512_S1024x512_1_0_0_1_n_n 512 rfl rfl k
  have el : dot_S1024x512_S512x512_S1024x512_1_0_0_1_n_n.lhsIdx (ix2 r d) ((ValueIdx.contrEquiv1 dot_S1024x512_S512x512_S1024x512_1_0_0_1_n_n 512 rfl rfl).symm k) = ix2 r k := funext fun a => Fin.ext (by
    match a with
    | ⟨0, _⟩ => exact dot_lhs_0 _ _
    | ⟨1, _⟩ => exact (dot_lhs_1 _ _).trans hk)
  have er : dot_S1024x512_S512x512_S1024x512_1_0_0_1_n_n.rhsIdx (ix2 r d) ((ValueIdx.contrEquiv1 dot_S1024x512_S512x512_S1024x512_1_0_0_1_n_n 512 rfl rfl).symm k) = ix2 k d := funext fun a => Fin.ext (by
    match a with
    | ⟨0, _⟩ => exact (dot_rhs_0 _ _).trans hk
    | ⟨1, _⟩ => exact dot_rhs_1 _ _)
  rw [el, er]

/-! ## The column blocks of the fused weight -/

/-- The slice at column offset 0 read at `(e, d)` is the weight at `(e, d)`: block 0, the queries' columns. -/
theorem slice_q_apply (x : FVec Ideal S512x1536 .bf16) (e d : Fin 512) :
    extractStridedSlice S512x512 ![0, 0] x slices_S512x1536_o0_0_S512x512 (ix2 e d) = x (ix2 e (col 0 d)) :=
  extractStridedSlice_apply ![0, 0] x slices_S512x1536_o0_0_S512x512 (ix2 e d) (ix2 e (col 0 d)) (fun a => match a with
    | ⟨0, _⟩ => by show e.val = 0 + e.val; omega
    | ⟨1, _⟩ => by show 512 * 0 + d.val = 0 + d.val; omega)

/-- The slice at column offset 512 read at `(e, d)` is the weight at `(e, 512 + d)`: block 1, the keys' columns. -/
theorem slice_k_apply (x : FVec Ideal S512x1536 .bf16) (e d : Fin 512) :
    extractStridedSlice S512x512 ![0, 512] x slices_S512x1536_o0_512_S512x512 (ix2 e d) = x (ix2 e (col 1 d)) :=
  extractStridedSlice_apply ![0, 512] x slices_S512x1536_o0_512_S512x512 (ix2 e d) (ix2 e (col 1 d)) (fun a => match a with
    | ⟨0, _⟩ => by show e.val = 0 + e.val; omega
    | ⟨1, _⟩ => by show 512 * 1 + d.val = 512 + d.val; omega)

/-- The slice at column offset 1024 read at `(e, d)` is the weight at `(e, 1024 + d)`: block 2, the values' columns. -/
theorem slice_v_apply (x : FVec Ideal S512x1536 .bf16) (e d : Fin 512) :
    extractStridedSlice S512x512 ![0, 1024] x slices_S512x1536_o0_1024_S512x512 (ix2 e d) = x (ix2 e (col 2 d)) :=
  extractStridedSlice_apply ![0, 1024] x slices_S512x1536_o0_1024_S512x512 (ix2 e d) (ix2 e (col 2 d)) (fun a => match a with
    | ⟨0, _⟩ => by show e.val = 0 + e.val; omega
    | ⟨1, _⟩ => by show 512 * 2 + d.val = 1024 + d.val; omega)

/-! ## What the body stores, at an index

Over the extended reals a change of format is the identity and a same-shape cast reads through, so each stored
block is the contraction of the staged rows with one column block of the weight; the queries' block is then multiplied
by the softmax temperature. -/

/-- The queries' block at row `r`, column `d`: the projection onto column block 0, times `scale`. -/
theorem stored_q_apply (x0 : Vec Ideal S1024x512 .f32) (x1 : Vec Ideal S512x1536 .bf16) (r : Fin 1024) (d : Fin 512) :
    k0_pay3 (F := Ideal) x0 x1 (ix2 r d) = (∑ e : Fin 512, x0 (ix2 r e) * x1 (ix2 e (col 0 d))) * scale := by
  unfold k0_pay3 k0_pay1 k0_pay2
  rw [truncf_apply, mulf_apply, broadcast_apply, dot_apply]
  simp only [shapeCast_self, truncf_apply, slice_q_apply]
  rfl

/-- The keys' block at row `r`, column `d`: the projection onto column block 1. -/
theorem stored_k_apply (x0 : Vec Ideal S1024x512 .f32) (x1 : Vec Ideal S512x1536 .bf16) (r : Fin 1024) (d : Fin 512) :
    k0_pay4 (F := Ideal) x0 x1 (ix2 r d) = ∑ e : Fin 512, x0 (ix2 r e) * x1 (ix2 e (col 1 d)) := by
  unfold k0_pay4 k0_pay1 k0_pay2
  rw [truncf_apply, dot_apply]
  simp only [shapeCast_self, truncf_apply, slice_k_apply]

/-- The values' block at row `r`, column `d`: the projection onto column block 2. -/
theorem stored_v_apply (x0 : Vec Ideal S1024x512 .f32) (x1 : Vec Ideal S512x1536 .bf16) (r : Fin 1024) (d : Fin 512) :
    k0_pay5 (F := Ideal) x0 x1 (ix2 r d) = ∑ e : Fin 512, x0 (ix2 r e) * x1 (ix2 e (col 2 d)) := by
  unfold k0_pay5 k0_pay1 k0_pay2
  rw [truncf_apply, dot_apply]
  simp only [shapeCast_self, truncf_apply, slice_v_apply]

/-! ## From a grid point's block to the whole array

The launch runs sixteen grid points. Point `t` stages rows `1024·t … 1024·t + 1023` of the flattened input and the
whole weight, and writes back rows `1024·t …` of each of the three outputs. -/

/-- The offsets of a whole-block access are zero on both axes. -/
theorem zero_offsets : (![0, 0] : Fin 2 → Nat) = fun _ => 0 := funext fun a => by fin_cases a <;> rfl

/-- The launch's block indices at each of the sixteen grid points: point `t` stages row block `t` of the input and
    writes back row block `t` of each output; the weight's one block is the whole weight at every point. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Row `r` of the input block staged at point `t` is row `1024·t + r` of the flattened input. -/
theorem rows_block (c : Dev nD) (t : Fin cfg0.N) (r : Fin 1024) (e : Fin 512) (R : Fin 16384) (hR : R.val = t.val * 1024 + r.val) :
    (iblk0 V c 0 t : Vec Ideal S1024x512 .f32) (ix2 r e) = (V c main_v1 : S2.Idx → EReal) (ix2 R e) := by
  obtain ⟨e00, e01, -⟩ := block_indices t
  show (V c main_v1 : S2.Idx → EReal) (((cfg0.win 0).blk t).view.emb (ix2 r e)) = _
  refine congrArg (V c main_v1 : S2.Idx → EReal) (funext fun a => Fin.ext ?_)
  match a with
  | ⟨0, _⟩ => show win0_0.index t (0 : Fin 2) * 1024 + 1 * r.val = R.val; rw [e00, hR]; omega
  | ⟨1, _⟩ => show win0_0.index t (1 : Fin 2) * 512 + 1 * e.val = e.val; rw [e01]; omega

/-- The weight block staged at any point is the whole weight. -/
theorem weight_block (c : Dev nD) (t : Fin cfg0.N) (e : Fin 512) (k : Fin 1536) :
    (iblk0 V c 1 t : Vec Ideal S512x1536 .bf16) (ix2 e k) = (V c main_v0 : SW.Idx → EReal) (ix2 e k) := by
  obtain ⟨-, -, e10, e11, -⟩ := block_indices t
  show (V c main_v0 : SW.Idx → EReal) (((cfg0.win 1).blk t).view.emb (ix2 e k)) = _
  refine congrArg (V c main_v0 : SW.Idx → EReal) (funext fun a => Fin.ext ?_)
  match a with
  | ⟨0, _⟩ => show win0_1.index t (0 : Fin 2) * 512 + 1 * e.val = e.val; rw [e10]; omega
  | ⟨1, _⟩ => show win0_1.index t (1 : Fin 2) * 1536 + 1 * k.val = k.val; rw [e11]; omega

/-- One entry of the queries' block from the arrays: if the staged rows are rows of `X` and the staged weight is `W`,
    the stored entry at `(r, d)` is the scaled projection at row `R`, column `d`. -/
theorem entry_q (X : S2.Idx → EReal) (W : SW.Idx → EReal) (x0 : Vec Ideal S1024x512 .f32) (x1 : Vec Ideal S512x1536 .bf16)
    (r : Fin 1024) (d : Fin 512) (R : Fin 16384)
    (h0 : ∀ e : Fin 512, x0 (ix2 r e) = X (ix2 R e))
    (h1 : ∀ (e : Fin 512) (k : Fin 1536), x1 (ix2 e k) = W (ix2 e k)) :
    k0_pay3 (F := Ideal) x0 x1 (ix2 r d) = projFlatQ X W (ix2 R d) := by
  rw [stored_q_apply]
  show _ = (∑ e : Fin 512, X (ix2 R e) * W (ix2 e (col 0 d))) * scale
  exact congrArg (· * scale) (Finset.sum_congr rfl fun e _ => by rw [h0, h1])

/-- The same for the keys' block: the projection onto column block 1. -/
theorem entry_k (X : S2.Idx → EReal) (W : SW.Idx → EReal) (x0 : Vec Ideal S1024x512 .f32) (x1 : Vec Ideal S512x1536 .bf16)
    (r : Fin 1024) (d : Fin 512) (R : Fin 16384)
    (h0 : ∀ e : Fin 512, x0 (ix2 r e) = X (ix2 R e))
    (h1 : ∀ (e : Fin 512) (k : Fin 1536), x1 (ix2 e k) = W (ix2 e k)) :
    k0_pay4 (F := Ideal) x0 x1 (ix2 r d) = projFlat 1 X W (ix2 R d) := by
  rw [stored_k_apply]
  show _ = ∑ e : Fin 512, X (ix2 R e) * W (ix2 e (col 1 d))
  exact Finset.sum_congr rfl fun e _ => by rw [h0, h1]

/-- The same for the values' block: the projection onto column block 2. -/
theorem entry_v (X : S2.Idx → EReal) (W : SW.Idx → EReal) (x0 : Vec Ideal S1024x512 .f32) (x1 : Vec Ideal S512x1536 .bf16)
    (r : Fin 1024) (d : Fin 512) (R : Fin 16384)
    (h0 : ∀ e : Fin 512, x0 (ix2 r e) = X (ix2 R e))
    (h1 : ∀ (e : Fin 512) (k : Fin 1536), x1 (ix2 e k) = W (ix2 e k)) :
    k0_pay5 (F := Ideal) x0 x1 (ix2 r d) = projFlat 2 X W (ix2 R d) := by
  rw [stored_v_apply]
  show _ = ∑ e : Fin 512, X (ix2 R e) * W (ix2 e (col 2 d))
  exact Finset.sum_congr rfl fun e _ => by rw [h0, h1]

/-! ## Output window 2: the scaled queries -/

/-- What point `t` writes back to the queries' array is block `t` of the projection of the arrays as the launch finds them. -/
theorem written_q (c : Dev nD) (t : Fin cfg0.N) :
    (dat0 V c).flushed 2 t = ((cfg0.win 2).blk t).view.read (Elt Ideal) (projFlatQ (V c main_v1) (V c main_v0)) := by
  show (cfg0.win 2).cut (grid0.coords t) ((dat0 V c).after 2 t) = _
  rw [after0_2]
  unfold out0_2
  rw [View.canon_unit_zero zero_offsets]
  simp only [View.ld_unit_zero (S := S1024x512) zero_offsets, View.ld_unit_zero (S := S512x1536) zero_offsets]
  obtain ⟨-, -, -, -, e20, e21, e30, e31, e40, e41⟩ := block_indices t
  have hN : grid0.N = 16 := N_0
  have ht : t.val < 16 := hN ▸ t.isLt
  funext j
  obtain ⟨r, d, rfl⟩ : ∃ (r : Fin 1024) (d : Fin 512), j = ix2 r d := ⟨j 0, j 1, eq_ix2 j⟩
  have hr : r.val < 1024 := r.isLt
  show k0_pay3 (F := Ideal) (iblk0 V c 0 t) (iblk0 V c 1 t) (ix2 r d)
    = projFlatQ (V c main_v1) (V c main_v0) (((cfg0.win 2).blk t).view.emb (ix2 r d))
  have hemb : ((cfg0.win 2).blk t).view.emb (ix2 r d) = (ix2 (⟨t.val * 1024 + r.val, by omega⟩ : Fin 16384) d : S2.Idx) := by
    funext a; apply Fin.ext
    match a with
    | ⟨0, _⟩ => show win0_2.index t (0 : Fin 2) * 1024 + 1 * r.val = t.val * 1024 + r.val; rw [e20]; omega
    | ⟨1, _⟩ => show win0_2.index t (1 : Fin 2) * 512 + 1 * d.val = d.val; rw [e21]; omega
  rw [hemb]
  exact entry_q (V c main_v1) (V c main_v0) (iblk0 V c 0 t) (iblk0 V c 1 t) r d _
    (fun e => rows_block V c t r e _ rfl) (fun e k => weight_block V c t e k)

/-- An index of the array is in point `t`'s block iff each coordinate is in the block's range on its axis. -/
theorem mem_rows_q (t : Fin cfg0.N) (i : S16384x512.Idx) :
    i ∈ ((cfg0.win 2).blk t).view.set ↔ ∀ a : Fin 2, win0_2.index t a * S1024x512.size a ≤ (i a).val ∧ (i a).val < win0_2.index t a * S1024x512.size a + S1024x512.size a := by
  show i ∈ ((View.whole main_v2_0).slice (win0_2.rect t)).set ↔ _
  rw [View.set_slice_whole, Rect.mem_set_unit]
  exact Iff.rfl

/-- Every index of the array is in some point's block: row `n` is written back by point `n / 1024`. -/
theorem covered_q (i : S16384x512.Idx) :
    ∃ t : Fin cfg0.N, (cfg0.win 2).flush t = true ∧ i ∈ ((cfg0.win 2).blk t).view.set := by
  have hi0 : (i 0).val < 16384 := (i 0).isLt
  have hi1 : (i 1).val < 512 := (i 1).isLt
  have hN : grid0.N = 16 := N_0
  obtain ⟨t, ht⟩ : ∃ t : Fin cfg0.N, t.val = (i 0).val / 1024 :=
    ⟨⟨(i 0).val / 1024, by show (i 0).val / 1024 < grid0.N; rw [hN]; omega⟩, rfl⟩
  obtain ⟨-, -, -, -, e20, e21, e30, e31, e40, e41⟩ := block_indices t
  refine ⟨t, flush0_2 t, ?_⟩
  rw [mem_rows_q]
  intro a
  match a with
  | ⟨0, _⟩ => show win0_2.index t (0 : Fin 2) * 1024 ≤ (i 0).val ∧ (i 0).val < win0_2.index t (0 : Fin 2) * 1024 + 1024; rw [e20, ht]; omega
  | ⟨1, _⟩ => show win0_2.index t (1 : Fin 2) * 512 ≤ (i 1).val ∧ (i 1).val < win0_2.index t (1 : Fin 2) * 512 + 512; rw [e21]; omega

/-! ## Output window 3: the keys -/

/-- What point `t` writes back to the keys' array is block `t` of the projection of the arrays as the launch finds them. -/
theorem written_k (c : Dev nD) (t : Fin cfg0.N) :
    (dat0 V c).flushed 3 t = ((cfg0.win 3).blk t).view.read (Elt Ideal) (projFlat 1 (V c main_v1) (V c main_v0)) := by
  show (cfg0.win 3).cut (grid0.coords t) ((dat0 V c).after 3 t) = _
  rw [after0_3]
  unfold out0_3
  rw [View.canon_unit_zero zero_offsets]
  simp only [View.ld_unit_zero (S := S1024x512) zero_offsets, View.ld_unit_zero (S := S512x1536) zero_offsets]
  obtain ⟨-, -, -, -, e20, e21, e30, e31, e40, e41⟩ := block_indices t
  have hN : grid0.N = 16 := N_0
  have ht : t.val < 16 := hN ▸ t.isLt
  funext j
  obtain ⟨r, d, rfl⟩ : ∃ (r : Fin 1024) (d : Fin 512), j = ix2 r d := ⟨j 0, j 1, eq_ix2 j⟩
  have hr : r.val < 1024 := r.isLt
  show k0_pay4 (F := Ideal) (iblk0 V c 0 t) (iblk0 V c 1 t) (ix2 r d)
    = projFlat 1 (V c main_v1) (V c main_v0) (((cfg0.win 3).blk t).view.emb (ix2 r d))
  have hemb : ((cfg0.win 3).blk t).view.emb (ix2 r d) = (ix2 (⟨t.val * 1024 + r.val, by omega⟩ : Fin 16384) d : S2.Idx) := by
    funext a; apply Fin.ext
    match a with
    | ⟨0, _⟩ => show win0_3.index t (0 : Fin 2) * 1024 + 1 * r.val = t.val * 1024 + r.val; rw [e30]; omega
    | ⟨1, _⟩ => show win0_3.index t (1 : Fin 2) * 512 + 1 * d.val = d.val; rw [e31]; omega
  rw [hemb]
  exact entry_k (V c main_v1) (V c main_v0) (iblk0 V c 0 t) (iblk0 V c 1 t) r d _
    (fun e => rows_block V c t r e _ rfl) (fun e k => weight_block V c t e k)

/-- An index of the array is in point `t`'s block iff each coordinate is in the block's range on its axis. -/
theorem mem_rows_k (t : Fin cfg0.N) (i : S16384x512.Idx) :
    i ∈ ((cfg0.win 3).blk t).view.set ↔ ∀ a : Fin 2, win0_3.index t a * S1024x512.size a ≤ (i a).val ∧ (i a).val < win0_3.index t a * S1024x512.size a + S1024x512.size a := by
  show i ∈ ((View.whole main_v2_1).slice (win0_3.rect t)).set ↔ _
  rw [View.set_slice_whole, Rect.mem_set_unit]
  exact Iff.rfl

/-- Every index of the array is in some point's block: row `n` is written back by point `n / 1024`. -/
theorem covered_k (i : S16384x512.Idx) :
    ∃ t : Fin cfg0.N, (cfg0.win 3).flush t = true ∧ i ∈ ((cfg0.win 3).blk t).view.set := by
  have hi0 : (i 0).val < 16384 := (i 0).isLt
  have hi1 : (i 1).val < 512 := (i 1).isLt
  have hN : grid0.N = 16 := N_0
  obtain ⟨t, ht⟩ : ∃ t : Fin cfg0.N, t.val = (i 0).val / 1024 :=
    ⟨⟨(i 0).val / 1024, by show (i 0).val / 1024 < grid0.N; rw [hN]; omega⟩, rfl⟩
  obtain ⟨-, -, -, -, e20, e21, e30, e31, e40, e41⟩ := block_indices t
  refine ⟨t, flush0_3 t, ?_⟩
  rw [mem_rows_k]
  intro a
  match a with
  | ⟨0, _⟩ => show win0_3.index t (0 : Fin 2) * 1024 ≤ (i 0).val ∧ (i 0).val < win0_3.index t (0 : Fin 2) * 1024 + 1024; rw [e30, ht]; omega
  | ⟨1, _⟩ => show win0_3.index t (1 : Fin 2) * 512 ≤ (i 1).val ∧ (i 1).val < win0_3.index t (1 : Fin 2) * 512 + 512; rw [e31]; omega

/-! ## Output window 4: the values -/

/-- What point `t` writes back to the values' array is block `t` of the projection of the arrays as the launch finds them. -/
theorem written_v (c : Dev nD) (t : Fin cfg0.N) :
    (dat0 V c).flushed 4 t = ((cfg0.win 4).blk t).view.read (Elt Ideal) (projFlat 2 (V c main_v1) (V c main_v0)) := by
  show (cfg0.win 4).cut (grid0.coords t) ((dat0 V c).after 4 t) = _
  rw [after0_4]
  unfold out0_4
  rw [View.canon_unit_zero zero_offsets]
  simp only [View.ld_unit_zero (S := S1024x512) zero_offsets, View.ld_unit_zero (S := S512x1536) zero_offsets]
  obtain ⟨-, -, -, -, e20, e21, e30, e31, e40, e41⟩ := block_indices t
  have hN : grid0.N = 16 := N_0
  have ht : t.val < 16 := hN ▸ t.isLt
  funext j
  obtain ⟨r, d, rfl⟩ : ∃ (r : Fin 1024) (d : Fin 512), j = ix2 r d := ⟨j 0, j 1, eq_ix2 j⟩
  have hr : r.val < 1024 := r.isLt
  show k0_pay5 (F := Ideal) (iblk0 V c 0 t) (iblk0 V c 1 t) (ix2 r d)
    = projFlat 2 (V c main_v1) (V c main_v0) (((cfg0.win 4).blk t).view.emb (ix2 r d))
  have hemb : ((cfg0.win 4).blk t).view.emb (ix2 r d) = (ix2 (⟨t.val * 1024 + r.val, by omega⟩ : Fin 16384) d : S2.Idx) := by
    funext a; apply Fin.ext
    match a with
    | ⟨0, _⟩ => show win0_4.index t (0 : Fin 2) * 1024 + 1 * r.val = t.val * 1024 + r.val; rw [e40]; omega
    | ⟨1, _⟩ => show win0_4.index t (1 : Fin 2) * 512 + 1 * d.val = d.val; rw [e41]; omega
  rw [hemb]
  exact entry_v (V c main_v1) (V c main_v0) (iblk0 V c 0 t) (iblk0 V c 1 t) r d _
    (fun e => rows_block V c t r e _ rfl) (fun e k => weight_block V c t e k)

/-- An index of the array is in point `t`'s block iff each coordinate is in the block's range on its axis. -/
theorem mem_rows_v (t : Fin cfg0.N) (i : S16384x512.Idx) :
    i ∈ ((cfg0.win 4).blk t).view.set ↔ ∀ a : Fin 2, win0_4.index t a * S1024x512.size a ≤ (i a).val ∧ (i a).val < win0_4.index t a * S1024x512.size a + S1024x512.size a := by
  show i ∈ ((View.whole main_v2_2).slice (win0_4.rect t)).set ↔ _
  rw [View.set_slice_whole, Rect.mem_set_unit]
  exact Iff.rfl

/-- Every index of the array is in some point's block: row `n` is written back by point `n / 1024`. -/
theorem covered_v (i : S16384x512.Idx) :
    ∃ t : Fin cfg0.N, (cfg0.win 4).flush t = true ∧ i ∈ ((cfg0.win 4).blk t).view.set := by
  have hi0 : (i 0).val < 16384 := (i 0).isLt
  have hi1 : (i 1).val < 512 := (i 1).isLt
  have hN : grid0.N = 16 := N_0
  obtain ⟨t, ht⟩ : ∃ t : Fin cfg0.N, t.val = (i 0).val / 1024 :=
    ⟨⟨(i 0).val / 1024, by show (i 0).val / 1024 < grid0.N; rw [hN]; omega⟩, rfl⟩
  obtain ⟨-, -, -, -, e20, e21, e30, e31, e40, e41⟩ := block_indices t
  refine ⟨t, flush0_4 t, ?_⟩
  rw [mem_rows_v]
  intro a
  match a with
  | ⟨0, _⟩ => show win0_4.index t (0 : Fin 2) * 1024 ≤ (i 0).val ∧ (i 0).val < win0_4.index t (0 : Fin 2) * 1024 + 1024; rw [e40, ht]; omega
  | ⟨1, _⟩ => show win0_4.index t (1 : Fin 2) * 512 ≤ (i 1).val ∧ (i 1).val < win0_4.index t (1 : Fin 2) * 512 + 512; rw [e41]; omega

/-! ## The three arrays after the launch

Every row of each output lies in exactly the block its grid point writes back, and each block is the block of one
function of the input and the weight: so each array ends holding that function. -/

theorem q_final (c : Dev nD) : (dat0 (F := Ideal) V c).arrAt 2 cfg0.N = projFlatQ (V c main_v1) (V c main_v0) :=
  (dat0 V c).arrAt_eq_of_cover 2 (projFlatQ (V c main_v1) (V c main_v0)) (fun t _ => written_q V c t) covered_q

theorem k_final (c : Dev nD) : (dat0 (F := Ideal) V c).arrAt 3 cfg0.N = projFlat 1 (V c main_v1) (V c main_v0) :=
  (dat0 V c).arrAt_eq_of_cover 3 (projFlat 1 (V c main_v1) (V c main_v0)) (fun t _ => written_k V c t) covered_k

theorem v_final (c : Dev nD) : (dat0 (F := Ideal) V c).arrAt 4 cfg0.N = projFlat 2 (V c main_v1) (V c main_v0) :=
  (dat0 V c).arrAt_eq_of_cover 4 (projFlat 2 (V c main_v1) (V c main_v0)) (fun t _ => written_v V c t) covered_v

end Cert.KernelIdeal.Region0

end
-- ==== Proof.Region1.lean ====
/-
  The value of the second launch: softmax attention, read off the launch's frame.

  The launch's grid is 8 × 2. Point (b, h) stages rows 1024·h … 1024·h + 1023 of batch b of the scaled queries, all
  2048 rows of batch b of the keys and of the values, and writes back rows 1024·h … 1024·h + 1023 of batch b of the
  result. On its blocks the body computes the logits S = q·kᵀ (a contraction over the 512 features into zero), their
  row maximum m folded from -∞, the weights E = exp (S − m), the row sum l of the weights, and stores (E·v) / l.

  First the body's arithmetic at one index of a block, one small lemma per operation that is not pointwise (the two
  unit-axis casts, the column cast and the column broadcast, the two row reductions, the two contractions); then each
  staged block as rows of its array; then what a point writes back, the cover of the result by the sixteen blocks, and
  the result array as one function of the three arrays the launch finds.
-/
import proofs.«414263_j11785390260643_3_alg».proof.Proof.Gen.KernelIdeal.Frame
import proofs.«414263_j11785390260643_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen Cert.Spec
open Idealize.ShloMosaic Idealize.ShloMosaic.TcCoe Idealize.SL.Sem Idealize.ShloMosaic.ValueIdx

variable (V : (c : Dev nD) → (b : Ref sig .tc) → Buf (Elt Ideal) ((c : Thread nD τ).loc b))

/-! ### Layout: a vector as a column, and a column broadcast along its unit axis -/

/-- A vector of extent a viewed as a column [a, 1] reads, at (i, u), the vector at i. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast along its unit axis to [a, b] reads, at (i, j), the column at (i, 0). -/
theorem broadcastTo_a1_ab_apply {α : Type} {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-! ### The two row reductions -/

/-- The pattern of binary32's -∞ is the bottom of the extended reals. -/
theorem ofBits_neg_inf : (FloatOps.ofBits .f32 0xFF800000#32 : Ideal .f32) = (⊥ : EReal) := by
  show Ideal.ofBits .f32 0xFF800000#32 = ⊥
  simp [Ideal.ofBits, Ideal.ieee]

/-- The row maximum of a [1024, 2048] matrix, folded from -∞ over the columns of row r. -/
theorem rowMax_apply (v : FVec Ideal S1024x2048 .f32) (r : Fin 1024) :
    multiReduction (F := Ideal) .maximumf [1] S1024 v 0xFF800000#32 reduces_S1024x2048_S1024 (.inl rfl) rfl (ix1 r)
      = (Finset.univ : Finset (Fin 2048)).fold max (⊥ : EReal) (fun j => v (ix2 r j)) := by
  refine (Ideal.multiReduction_maximumf_single v 0xFF800000#32 reduces_S1024x2048_S1024 (.inl rfl) rfl (ix1 r)).trans ?_
  show (Finset.univ : Finset (Fin 2048)).fold max (FloatOps.ofBits .f32 0xFF800000#32 : Ideal .f32) (fun j => v (reduces_S1024x2048_S1024.lift (ix1 r) j)) = _
  rw [ofBits_neg_inf]
  refine congrArg (fun f => (Finset.univ : Finset (Fin 2048)).fold max (⊥ : EReal) f) (funext fun j => congrArg v (funext fun a => Fin.ext ?_))
  match a with
  | ⟨0, _⟩ => rfl
  | ⟨1, _⟩ => rfl

/-- The row sum of a [1024, 2048] matrix over the columns of row r. -/
theorem rowSum_apply (v : FVec Ideal S1024x2048 .f32) (r : Fin 1024) :
    multiReduction (F := Ideal) .add [1] S1024 v 0x00000000#32 reduces_S1024x2048_S1024 (.inl rfl) rfl (ix1 r)
      = ∑ j : Fin 2048, v (ix2 r j) := by
  refine (Ideal.multiReduction_add_single v 0x00000000#32 reduces_S1024x2048_S1024 (.inl rfl) rfl (ix1 r)).trans ?_
  show ∑ j : Fin 2048, v (reduces_S1024x2048_S1024.lift (ix1 r) j) = _
  refine Finset.sum_congr rfl fun j _ => congrArg v (funext fun a => Fin.ext ?_)
  match a with
  | ⟨0, _⟩ => rfl
  | ⟨1, _⟩ => rfl

/-! ### The two contractions: the operands' indices at an output index and a contraction position -/

/-- Logits: the left operand's row is the output's row … -/
theorem lhs_qk_0 (i : S1024x2048.Idx) (q : dot_S1024x512_S2048x512_S1024x2048_1_1_0_0_n_n.contr.Idx) :
    (dot_S1024x512_S2048x512_S1024x2048_1_1_0_0_n_n.lhsIdx i q 0).val = (i 0).val := by
  unfold DotDims.lhsIdx
  rw [dif_neg (show ¬(0 : Fin S1024x512.rank) ∈ dot_S1024x512_S2048x512_S1024x2048_1_1_0_0_n_n.lhsBatch by decide), dif_pos (show (0 : Fin S1024x512.rank) ∈ dot_S1024x512_S2048x512_S1024x2048_1_1_0_0_n_n.lhsNonContracting by decide)]
  rfl
/-- … its column the contraction position; -/
theorem lhs_qk_1 (i : S1024x2048.Idx) (q : dot_S1024x512_S2048x512_S1024x2048_1_1_0_0_n_n.contr.Idx) :
    (dot_S1024x512_S2048x512_S1024x2048_1_1_0_0_n_n.lhsIdx i q 1).val = (q ⟨0, by decide⟩).val :=
  dot_S1024x512_S2048x512_S1024x2048_1_1_0_0_n_n.lhsIdx_val_of_single rfl i q
/-- the right operand's row is the output's column … -/
theorem rhs_qk_0 (i : S1024x2048.Idx) (q : dot_S1024x512_S2048x512_S1024x2048_1_1_0_0_n_n.contr.Idx) :
    (dot_S1024x512_S2048x512_S1024x2048_1_1_0_0_n_n.rhsIdx i q 0).val = (i 1).val := by
  unfold DotDims.rhsIdx
  rw [dif_neg (show ¬(0 : Fin S2048x512.rank) ∈ dot_S1024x512_S2048x512_S1024x2048_1_1_0_0_n_n.rhsBatch by decide), dif_pos (show (0 : Fin S2048x512.rank) ∈ dot_S1024x512_S2048x512_S1024x2048_1_1_0_0_n_n.rhsNonContracting by decide)]
  rfl
/-- … and its column the contraction position. -/
theorem rhs_qk_1 (i : S1024x2048.Idx) (q : dot_S1024x512_S2048x512_S1024x2048_1_1_0_0_n_n.contr.Idx) :
    (dot_S1024x512_S2048x512_S1024x2048_1_1_0_0_n_n.rhsIdx i q 1).val = (q ⟨0, by decide⟩).val :=
  dot_S1024x512_S2048x512_S1024x2048_1_1_0_0_n_n.rhsIdx_val_of_single rfl i q

/-- The logits' product into a zero accumulator at (r, j): row r of the left operand against row j of the right. -/
theorem qk_apply (a : FVec Ideal S1024x512 .bf16) (b : FVec Ideal S2048x512 .bf16) (r : Fin 1024) (j : Fin 2048) :
    matmul (F := Ideal) dot_S1024x512_S2048x512_S1024x2048_1_1_0_0_n_n none a b (constant (F := Ideal) S1024x2048 .f32 0x00000000#32) (ix2 r j)
      = ∑ e : Fin 512, a (ix2 r e) * b (ix2 j e) := by
  simp only [matmul]
  rw [Ideal.matmul_constant_zero_apply, ← Equiv.sum_comp (ValueIdx.contrEquiv1 dot_S1024x512_S2048x512_S1024x2048_1_1_0_0_n_n 512 rfl rfl).symm]
  refine Finset.sum_congr rfl fun k _ => ?_
  have hk := ValueIdx.contrEquiv1_symm_val dot_S1024x512_S2048x512_S1024x2048_1_1_0_0_n_n 512 rfl rfl k
  have el : dot_S1024x512_S2048x512_S1024x2048_1_1_0_0_n_n.lhsIdx (ix2 r j) ((ValueIdx.contrEquiv1 dot_S1024x512_S2048x512_S1024x2048_1_1_0_0_n_n 512 rfl rfl).symm k) = ix2 r k := funext fun a => Fin.ext (by
    match a with
    | ⟨0, _⟩ => exact lhs_qk_0 _ _
    | ⟨1, _⟩ => exact (lhs_qk_1 _ _).trans hk)
  have er : dot_S1024x512_S2048x512_S1024x2048_1_1_0_0_n_n.rhsIdx (ix2 r j) ((ValueIdx.contrEquiv1 dot_S1024x512_S2048x512_S1024x2048_1_1_0_0_n_n 512 rfl rfl).symm k) = ix2 j k := funext fun a => Fin.ext (by
    match a with
    | ⟨0, _⟩ => exact rhs_qk_0 _ _
    | ⟨1, _⟩ => exact (rhs_qk_1 _ _).trans hk)
  rw [el, er]

/-- Weighted values: the left operand's row is the output's row … -/
theorem lhs_pv_0 (i : S1024x512.Idx) (q : dot_S1024x2048_S2048x512_S1024x512_1_0_0_1_n_n.contr.Idx) :
    (dot_S1024x2048_S2048x512_S1024x512_1_0_0_1_n_n.lhsIdx i q 0).val = (i 0).val := by
  unfold DotDims.lhsIdx
  rw [dif_neg (show ¬(0 : Fin S1024x2048.rank) ∈ dot_S1024x2048_S2048x512_S1024x512_1_0_0_1_n_n.lhsBatch by decide), dif_pos (show (0 : Fin S1024x2048.rank) ∈ dot_S1024x2048_S2048x512_S1024x512_1_0_0_1_n_n.lhsNonContracting by decide)]
  rfl
/-- … its column the contraction position; -/
theorem lhs_pv_1 (i : S1024x512.Idx) (q : dot_S1024x2048_S2048x512_S1024x512_1_0_0_1_n_n.contr.Idx) :
    (dot_S1024x2048_S2048x512_S1024x512_1_0_0_1_n_n.lhsIdx i q 1).val = (q ⟨0, by decide⟩).val :=
  dot_S1024x2048_S2048x512_S1024x512_1_0_0_1_n_n.lhsIdx_val_of_single rfl i q
/-- the right operand's row is the contraction position … -/
theorem rhs_pv_0 (i : S1024x512.Idx) (q : dot_S1024x2048_S2048x512_S1024x512_1_0_0_1_n_n.contr.Idx) :
    (dot_S1024x2048_S2048x512_S1024x512_1_0_0_1_n_n.rhsIdx i q 0).val = (q ⟨0, by decide⟩).val :=
  dot_S1024x2048_S2048x512_S1024x512_1_0_0_1_n_n.rhsIdx_val_of_single rfl i q
/-- … and its column the output's column. -/
theorem rhs_pv_1 (i : S1024x512.Idx) (q : dot_S1024x2048_S2048x512_S1024x512_1_0_0_1_n_n.contr.Idx) :
    (dot_S1024x2048_S2048x512_S1024x512_1_0_0_1_n_n.rhsIdx i q 1).val = (i 1).val := by
  unfold DotDims.rhsIdx
  rw [dif_neg (show ¬(1 : Fin S2048x512.rank) ∈ dot_S1024x2048_S2048x512_S1024x512_1_0_0_1_n_n.rhsBatch by decide), dif_pos (show (1 : Fin S2048x512.rank) ∈ dot_S1024x2048_S2048x512_S1024x512_1_0_0_1_n_n.rhsNonContracting by decide)]
  rfl

/-- The weights' product with the values into a zero accumulator at (r, d): row r of the weights against column d of the values. -/
theorem pv_apply (p : FVec Ideal S1024x2048 .bf16) (v : FVec Ideal S2048x512 .bf16) (r : Fin 1024) (d : Fin 512) :
    matmul (F := Ideal) dot_S1024x2048_S2048x512_S1024x512_1_0_0_1_n_n none p v (constant (F := Ideal) S1024x512 .f32 0x00000000#32) (ix2 r d)
      = ∑ j : Fin 2048, p (ix2 r j) * v (ix2 j d) := by
  simp only [matmul]
  rw [Ideal.matmul_constant_zero_apply, ← Equiv.sum_comp (ValueIdx.contrEquiv1 dot_S1024x2048_S2048x512_S1024x512_1_0_0_1_n_n 2048 rfl rfl).symm]
  refine Finset.sum_congr rfl fun k _ => ?_
  have hk := ValueIdx.contrEquiv1_symm_val dot_S1024x2048_S2048x512_S1024x512_1_0_0_1_n_n 2048 rfl rfl k
  have el : dot_S1024x2048_S2048x512_S1024x512_1_0_0_1_n_n.lhsIdx (ix2 r d) ((ValueIdx.contrEquiv1 dot_S1024x2048_S2048x512_S1024x512_1_0_0_1_n_n 2048 rfl rfl).symm k) = ix2 r k := funext fun a => Fin.ext (by
    match a with
    | ⟨0, _⟩ => exact lhs_pv_0 _ _
    | ⟨1, _⟩ => exact (lhs_pv_1 _ _).trans hk)
  have er : dot_S1024x2048_S2048x512_S1024x512_1_0_0_1_n_n.rhsIdx (ix2 r d) ((ValueIdx.contrEquiv1 dot_S1024x2048_S2048x512_S1024x512_1_0_0_1_n_n 2048 rfl rfl).symm k) = ix2 k d := funext fun a => Fin.ext (by
    match a with
    | ⟨0, _⟩ => exact (rhs_pv_0 _ _).trans hk
    | ⟨1, _⟩ => exact rhs_pv_1 _ _)
  rw [el, er]

/-! ### The body's arithmetic on one block, at an index -/

/-- The logits of one block: query row r against key row j. -/
def blkLogit (x0 : Vec Ideal S1x1024x512 .bf16) (x1 : Vec Ideal S1x2048x512 .bf16) (r : Fin 1024) (j : Fin 2048) : EReal :=
  ∑ e : Fin 512, x0 (ix3 (0 : Fin 1) r e) * x1 (ix3 (0 : Fin 1) j e)

/-- Their row maximum, folded from -∞. -/
def blkMax (x0 : Vec Ideal S1x1024x512 .bf16) (x1 : Vec Ideal S1x2048x512 .bf16) (r : Fin 1024) : EReal :=
  (Finset.univ : Finset (Fin 2048)).fold max (⊥ : EReal) (fun j => blkLogit x0 x1 r j)

/-- The logits as the body computes them: the two loads without their unit axis, contracted over the features into zero. -/
def lgVec (x0 : Vec Ideal S1x1024x512 .bf16) (x1 : Vec Ideal S1x2048x512 .bf16) : FVec Ideal S1024x2048 .f32 :=
  matmul (F := Ideal) dot_S1024x512_S2048x512_S1024x2048_1_1_0_0_n_n none
    (shapeCast S1024x512 x0 shapeCasts_S1x1024x512_S1024x512 : FVec Ideal S1024x512 .bf16)
    (shapeCast S2048x512 x1 shapeCasts_S1x2048x512_S2048x512 : FVec Ideal S2048x512 .bf16)
    (constant (F := Ideal) S1024x2048 .f32 0x00000000#32)

theorem lgVec_apply (x0 : Vec Ideal S1x1024x512 .bf16) (x1 : Vec Ideal S1x2048x512 .bf16) (r : Fin 1024) (j : Fin 2048) :
    lgVec x0 x1 (ix2 r j) = blkLogit x0 x1 r j := by
  unfold lgVec blkLogit
  refine (qk_apply _ _ r j).trans (Finset.sum_congr rfl fun e _ => ?_)
  rw [shapeCast_1ab_ab_apply, shapeCast_1ab_ab_apply]

/-- The unnormalised weights as the body computes them: the exponential of the logits less their row maximum,
    the maximum kept as a column and broadcast back along the row. -/
def exVec (x0 : Vec Ideal S1x1024x512 .bf16) (x1 : Vec Ideal S1x2048x512 .bf16) : FVec Ideal S1024x2048 .f32 :=
  exp (subf (lgVec x0 x1)
    (broadcastTo S1024x2048
      (shapeCast S1024x1 (multiReduction (F := Ideal) .maximumf [1] S1024 (lgVec x0 x1) 0xFF800000#32 reduces_S1024x2048_S1024 (.inl rfl) rfl)
        shapeCasts_S1024_S1024x1)
      broadcasts_S1024x1_S1024x2048))

theorem exVec_apply (x0 : Vec Ideal S1x1024x512 .bf16) (x1 : Vec Ideal S1x2048x512 .bf16) (r : Fin 1024) (j : Fin 2048) :
    exVec x0 x1 (ix2 r j) = Ideal.exp (blkLogit x0 x1 r j - blkMax x0 x1 r) := by
  unfold exVec
  show Ideal.exp (lgVec x0 x1 (ix2 r j) - broadcastTo S1024x2048 _ broadcasts_S1024x1_S1024x2048 (ix2 r j)) = _
  rw [broadcastTo_a1_ab_apply, shapeCast_a_a1_apply, rowMax_apply, lgVec_apply]
  unfold blkMax
  simp only [lgVec_apply]

/-- The body's payload is the weights times the values, divided by the weights' row sum kept as a column and broadcast
    along the features, with the unit axis put back. -/
theorem k1_pay1_eq (x0 : Vec Ideal S1x1024x512 .bf16) (x1 x2 : Vec Ideal S1x2048x512 .bf16) :
    k1_pay1 (F := Ideal) x0 x1 x2
      = shapeCast S1x1024x512
          (divf
            (matmul (F := Ideal) dot_S1024x2048_S2048x512_S1024x512_1_0_0_1_n_n none
              (truncf .bf16 (exVec x0 x1) bitsLt_bf16_f32 : FVec Ideal S1024x2048 .bf16)
              (shapeCast S2048x512 x2 shapeCasts_S1x2048x512_S2048x512 : FVec Ideal S2048x512 .bf16)
              (constant (F := Ideal) S1024x512 .f32 0x00000000#32))
            (broadcastTo S1024x512
              (shapeCast S1024x1 (multiReduction (F := Ideal) .add [1] S1024 (exVec x0 x1) 0x00000000#32 reduces_S1024x2048_S1024 (.inl rfl) rfl)
                shapeCasts_S1024_S1024x1)
              broadcasts_S1024x1_S1024x512))
          shapeCasts_S1024x512_S1x1024x512 := rfl

/-- THE PAYLOAD AT AN INDEX: row r, feature d of what the body stores is the weighted sum of the values over the key
    rows divided by the sum of the weights. -/
theorem pay_apply (x0 : Vec Ideal S1x1024x512 .bf16) (x1 x2 : Vec Ideal S1x2048x512 .bf16) (r : Fin 1024) (d : Fin 512) :
    k1_pay1 (F := Ideal) x0 x1 x2 (ix3 (0 : Fin 1) r d)
      = Ideal.div (∑ j : Fin 2048, Ideal.exp (blkLogit x0 x1 r j - blkMax x0 x1 r) * x2 (ix3 (0 : Fin 1) j d))
          (∑ j : Fin 2048, Ideal.exp (blkLogit x0 x1 r j - blkMax x0 x1 r)) := by
  rw [k1_pay1_eq]
  refine (shapeCast_ab_1ab_apply _ _ (0 : Fin 1) r d).trans ?_
  rw [divf_apply]
  refine congrArg₂ Ideal.div ?_ ?_
  · refine (pv_apply _ _ r d).trans (Finset.sum_congr rfl fun j _ => ?_)
    rw [truncf_apply, exVec_apply, shapeCast_1ab_ab_apply]
  · refine (broadcastTo_a1_ab_apply _ _ r d).trans ((shapeCast_a_a1_apply _ _ r (0 : Fin 1)).trans ((rowSum_apply _ r).trans ?_))
    exact Finset.sum_congr rfl fun j _ => exVec_apply x0 x1 r j

/-! ### From blocks to the array -/

theorem hz : (![0, 0, 0] : Fin 3 → Nat) = fun _ => 0 := funext fun a => by fin_cases a <;> rfl

/-- The printed index maps, decided over the grid's 16 points: the query block moves with the result's block; the key
    and value blocks follow its batch and stay at row block 0; the result's block indices stay in their ranges. -/
theorem idx_facts : ∀ t : Fin cfg1.N,
    win1_0.index t (0 : Fin 3) = win1_3.index t (0 : Fin 3)
    ∧ win1_0.index t (1 : Fin 3) = win1_3.index t (1 : Fin 3)
    ∧ win1_0.index t (2 : Fin 3) = 0
    ∧ win1_1.index t (0 : Fin 3) = win1_3.index t (0 : Fin 3)
    ∧ win1_1.index t (1 : Fin 3) = 0
    ∧ win1_1.index t (2 : Fin 3) = 0
    ∧ win1_2.index t (0 : Fin 3) = win1_3.index t (0 : Fin 3)
    ∧ win1_2.index t (1 : Fin 3) = 0
    ∧ win1_2.index t (2 : Fin 3) = 0
    ∧ win1_3.index t (0 : Fin 3) ≤ 7 ∧ win1_3.index t (1 : Fin 3) ≤ 1 ∧ win1_3.index t (2 : Fin 3) = 0 :=
  (by decide +kernel : ∀ t : Fin grid1.N, _)

/-- Every block of the result is some point's. -/
theorem idx_onto : ∀ (q0 : Fin 8) (q1 : Fin 2), ∃ t : Fin cfg1.N, win1_3.index t = ![q0.val, q1.val, 0] :=
  (by decide +kernel : ∀ (q0 : Fin 8) (q1 : Fin 2), ∃ t : Fin grid1.N, win1_3.index t = ![q0.val, q1.val, 0])

/-- The payload of blocks that are rows of three arrays q, k, v — the query block the rows o … o + 1023 of batch b, the
    key and value blocks all of batch b — is the attention of q, k, v at those rows. -/
theorem pay_blocks (q k v : S3.Idx → EReal) (x0 : Vec Ideal S1x1024x512 .bf16) (x1 x2 : Vec Ideal S1x2048x512 .bf16)
    (b : Fin 8) (o : Nat)
    (h0 : ∀ (r : Fin 1024) (n : Fin 2048), n.val = o + r.val → ∀ e : Fin 512, x0 (ix3 (0 : Fin 1) r e) = q (ix3 b n e))
    (h1 : ∀ (j : Fin 2048) (e : Fin 512), x1 (ix3 (0 : Fin 1) j e) = k (ix3 b j e))
    (h2 : ∀ (j : Fin 2048) (e : Fin 512), x2 (ix3 (0 : Fin 1) j e) = v (ix3 b j e))
    (y : S1x1024x512.Idx) (i : S3.Idx) (hi0 : (i 0).val = b.val) (hi1 : (i 1).val = o + (y 1).val) (hi2 : (i 2).val = (y 2).val) :
    k1_pay1 (F := Ideal) x0 x1 x2 y = attnK q k v i := by
  obtain ⟨u, r, d, rfl⟩ : ∃ (u : Fin 1) (r : Fin 1024) (d : Fin 512), y = ix3 u r d := ⟨y 0, y 1, y 2, eq_ix3 y⟩
  obtain ⟨b', n, d', rfl⟩ : ∃ (b' : Fin 8) (n : Fin 2048) (d' : Fin 512), i = ix3 b' n d' := ⟨i 0, i 1, i 2, eq_ix3 i⟩
  obtain rfl : u = 0 := Subsingleton.elim _ _
  obtain rfl : b' = b := Fin.ext hi0
  obtain rfl : d' = d := Fin.ext hi2
  have hn : n.val = o + r.val := hi1
  have hl : ∀ j, blkLogit x0 x1 r j = logitK q k b' n j := fun j => by
    unfold blkLogit logitK
    exact Finset.sum_congr rfl fun e _ => by rw [h0 r n hn e, h1 j e]
  have hm : blkMax x0 x1 r = rowMaxK q k b' n := by
    unfold blkMax rowMaxK
    simp only [hl]
  have he : ∀ j, Ideal.exp (blkLogit x0 x1 r j - blkMax x0 x1 r) = expK q k b' n j := fun j => by
    unfold expK
    rw [hl, hm]
  rw [pay_apply]
  show _ = Ideal.div (∑ j : Fin 2048, expK q k b' n j * v (ix3 b' j d')) (∑ j : Fin 2048, expK q k b' n j)
  simp only [he, h2]

/-- An element of the query block at point t sits in the query array at the result block's batch, at the block's
    row offset plus its own row. -/
theorem blk0_read (c : Dev nD) (t : Fin cfg1.N) (r : Fin 1024) (e : Fin 512) (b : Fin 8) (n : Fin 2048)
    (hb : b.val = win1_3.index t (0 : Fin 3)) (hn : n.val = win1_3.index t (1 : Fin 3) * 1024 + r.val) :
    (iblk1 (F := Ideal) V c 0 t : Vec Ideal S1x1024x512 .bf16) (ix3 (0 : Fin 1) r e) = (V c main_v3 : S3.Idx → EReal) (ix3 b n e) := by
  obtain ⟨f0, f1, f2, -⟩ := idx_facts t
  unfold iblk1
  rw [View.read_apply]
  show V c main_v3 _ = V c main_v3 _
  congr 1
  funext a; apply Fin.ext
  match a with
  | ⟨0, _⟩ => show win1_0.index t (0 : Fin 3) * 1 + 1 * 0 = b.val; omega
  | ⟨1, _⟩ => show win1_0.index t (1 : Fin 3) * 1024 + 1 * r.val = n.val; omega
  | ⟨2, _⟩ => show win1_0.index t (2 : Fin 3) * 512 + 1 * e.val = e.val; omega

/-- An element of the key block at point t sits in the key array at the result block's batch, at its own row. -/
theorem blk1_read (c : Dev nD) (t : Fin cfg1.N) (j : Fin 2048) (e : Fin 512) (b : Fin 8)
    (hb : b.val = win1_3.index t (0 : Fin 3)) :
    (iblk1 (F := Ideal) V c 1 t : Vec Ideal S1x2048x512 .bf16) (ix3 (0 : Fin 1) j e) = (V c main_v4 : S3.Idx → EReal) (ix3 b j e) := by
  obtain ⟨-, -, -, f3, f4, f5, -⟩ := idx_facts t
  unfold iblk1
  rw [View.read_apply]
  show V c main_v4 _ = V c main_v4 _
  congr 1
  funext a; apply Fin.ext
  match a with
  | ⟨0, _⟩ => show win1_1.index t (0 : Fin 3) * 1 + 1 * 0 = b.val; omega
  | ⟨1, _⟩ => show win1_1.index t (1 : Fin 3) * 2048 + 1 * j.val = j.val; omega
  | ⟨2, _⟩ => show win1_1.index t (2 : Fin 3) * 512 + 1 * e.val = e.val; omega

/-- An element of the value block at point t sits in the value array at the result block's batch, at its own row. -/
theorem blk2_read (c : Dev nD) (t : Fin cfg1.N) (j : Fin 2048) (e : Fin 512) (b : Fin 8)
    (hb : b.val = win1_3.index t (0 : Fin 3)) :
    (iblk1 (F := Ideal) V c 2 t : Vec Ideal S1x2048x512 .bf16) (ix3 (0 : Fin 1) j e) = (V c main_v5 : S3.Idx → EReal) (ix3 b j e) := by
  obtain ⟨-, -, -, -, -, -, f6, f7, f8, -⟩ := idx_facts t
  unfold iblk1
  rw [View.read_apply]
  show V c main_v5 _ = V c main_v5 _
  congr 1
  funext a; apply Fin.ext
  match a with
  | ⟨0, _⟩ => show win1_2.index t (0 : Fin 3) * 1 + 1 * 0 = b.val; omega
  | ⟨1, _⟩ => show win1_2.index t (1 : Fin 3) * 2048 + 1 * j.val = j.val; omega
  | ⟨2, _⟩ => show win1_2.index t (2 : Fin 3) * 512 + 1 * e.val = e.val; omega

/-- WHAT POINT t WRITES BACK is block t of the attention of the three arrays as the launch finds them. -/
theorem flushed3_eq (c : Dev nD) (t : Fin cfg1.N) :
    (dat1 (F := Ideal) V c).flushed 3 t
      = ((cfg1.win 3).blk t).view.read (Elt Ideal) (attnK (V c main_v3) (V c main_v4) (V c main_v5)) := by
  show (cfg1.win 3).cut (grid1.coords t) ((dat1 V c).after 3 t) = _
  rw [after1_3]
  unfold out1_3
  rw [View.canon_unit_zero hz]
  simp only [View.ld_unit_zero (S := S1x1024x512) hz, View.ld_unit_zero (S := S1x2048x512) hz]
  funext y
  show k1_pay1 (F := Ideal) (iblk1 V c 0 t) (iblk1 V c 1 t) (iblk1 V c 2 t) y
    = attnK (V c main_v3) (V c main_v4) (V c main_v5) (((cfg1.win 3).blk t).view.emb y)
  have hb : win1_3.index t (0 : Fin 3) < 8 := by have := (idx_facts t).2.2.2.2.2.2.2.2.2.1; omega
  refine pay_blocks (V c main_v3) (V c main_v4) (V c main_v5) (iblk1 V c 0 t) (iblk1 V c 1 t) (iblk1 V c 2 t)
    ⟨win1_3.index t (0 : Fin 3), hb⟩ (win1_3.index t (1 : Fin 3) * 1024)
    (fun r n hn e => blk0_read V c t r e ⟨win1_3.index t (0 : Fin 3), hb⟩ n rfl hn)
    (fun j e => blk1_read V c t j e ⟨win1_3.index t (0 : Fin 3), hb⟩ rfl)
    (fun j e => blk2_read V c t j e ⟨win1_3.index t (0 : Fin 3), hb⟩ rfl)
    y (((cfg1.win 3).blk t).view.emb y) ?_ ?_ ?_
  · show win1_3.index t (0 : Fin 3) * 1 + 1 * (y 0).val = win1_3.index t (0 : Fin 3)
    have hy : (y 0).val < 1 := (y 0).isLt
    omega
  · show win1_3.index t (1 : Fin 3) * 1024 + 1 * (y 1).val = win1_3.index t (1 : Fin 3) * 1024 + (y 1).val
    omega
  · show win1_3.index t (2 : Fin 3) * 512 + 1 * (y 2).val = (y 2).val
    have := (idx_facts t).2.2.2.2.2.2.2.2.2.2.2
    omega

/-- An index of the result array is in point t's block iff each coordinate is in the block's range on its axis. -/
theorem mem_blk3 (t : Fin cfg1.N) (i : S8x2048x512.Idx) :
    i ∈ ((cfg1.win 3).blk t).view.set ↔ ∀ a : Fin 3, win1_3.index t a * S1x1024x512.size a ≤ (i a).val ∧ (i a).val < win1_3.index t a * S1x1024x512.size a + S1x1024x512.size a := by
  show i ∈ ((View.whole main_v6).slice (win1_3.rect t)).set ↔ _
  rw [View.set_slice_whole, Rect.mem_set_unit]
  exact Iff.rfl

/-- The blocks tile the result: (b, n, d) lies in the block of index (b, n / 1024, 0), which some point writes back. -/
theorem cover3 (i : S8x2048x512.Idx) :
    ∃ t : Fin cfg1.N, (cfg1.win 3).flush t = true ∧ i ∈ ((cfg1.win 3).blk t).view.set := by
  have hi0 : (i 0).val < 8 := (i 0).isLt
  have hi1 : (i 1).val < 2048 := (i 1).isLt
  have hi2 : (i 2).val < 512 := (i 2).isLt
  obtain ⟨t, ht⟩ := idx_onto ⟨(i 0).val, hi0⟩ ⟨(i 1).val / 1024, by omega⟩
  have q0 : win1_3.index t (0 : Fin 3) = (i 0).val := congrFun ht 0
  have q1 : win1_3.index t (1 : Fin 3) = (i 1).val / 1024 := congrFun ht 1
  have q2 : win1_3.index t (2 : Fin 3) = 0 := congrFun ht 2
  refine ⟨t, flush1_3 t, ?_⟩
  rw [mem_blk3]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 1024 ≤ (i 1).val ∧ (i 1).val < win1_3.index t (1 : Fin 3) * 1024 + 1024; omega
  | ⟨2, _⟩ => show win1_3.index t (2 : Fin 3) * 512 ≤ (i 2).val ∧ (i 2).val < win1_3.index t (2 : Fin 3) * 512 + 512; omega

/-- THE RESULT ARRAY after the launch is the attention of the queries, keys and values as the launch finds them. -/
theorem attn_final (c : Dev nD) :
    (dat1 (F := Ideal) V c).arrAt 3 cfg1.N = attnK (V c main_v3) (V c main_v4) (V c main_v5) :=
  (dat1 V c).arrAt_eq_of_cover 3 (attnK (V c main_v3) (V c main_v4) (V c main_v5)) (fun t _ => flushed3_eq V c t) cover3

end Cert.KernelIdeal.Region1

end
-- ==== Proof.Glue.lean ====
/-
  The kernel's result array as ONE function of its two arguments.

  The run leaves the result at the contents the second launch's write-backs give it. Reading those contents back:
  the second launch computes attention of its three input arrays; those are the first launch's three outputs,
  re-laid from 16384 flattened rows to batch × position by a row-major reshape; the first launch computes the three
  blocks of the projection of the flattened `x` (the queries scaled) against the weight, whose change of float format
  is the identity on extended reals. Row `b·2048 + n` of the flattened array is row `(b, n)`, so the reshapes cancel
  index by index and the result is `attnK (qArr x w) (kArr x w) (vArr x w)`.
-/
import proofs.«414263_j11785390260643_3_alg».proof.Proof.KernelRun
import proofs.«414263_j11785390260643_3_alg».proof.Proof.Region0
import proofs.«414263_j11785390260643_3_alg».proof.Proof.Region1
import proofs.«414263_j11785390260643_3_alg».proof.Proof.Spec
import Idealize.ShloMosaic.Lib.StableHlo.Run
import Idealize.ShloMosaic.Lib.Pipeline.Value
import Idealize.ShloMosaic.Lib.ValueIdx

set_option maxRecDepth 16384

noncomputable section

namespace Cert.KernelIdeal.Glue

open Cert.KernelIdeal Cert.KernelIdeal.Gen Cert.Spec
open Idealize.ShloMosaic Idealize.ShloMosaic.TcCoe Idealize.SL.Sem Idealize.ShloMosaic.StableHlo Idealize.ShloMosaic.ValueIdx

/-! ## The reshapes, index by index -/

/-- Row `(b, n)` of `x` is row `b·2048 + n` of its flattening. -/
theorem flat_apply (x : S3.Idx → EReal) (h : S3.ShapeCasts S2) (b : Fin 8) (n : Fin 2048) (e : Fin 512) :
    shapeCast S2 x h (ix2 (⟨b.val * 2048 + n.val, by omega⟩ : Fin 16384) e) = x (ix3 b n e) := by
  refine shapeCast_apply x h _ (ix3 b n e) ?_
  rw [Shape.rowMajor_val_three, Shape.rowMajor_val_two]
  rfl

/-- Entry `(b, n, d)` of the re-laid array is entry `(b·2048 + n, d)` of the flattened one. -/
theorem unflat_apply (y : S2.Idx → EReal) (h : S2.ShapeCasts S3) (b : Fin 8) (n : Fin 2048) (d : Fin 512) :
    shapeCast S3 y h (ix3 b n d) = y (ix2 (⟨b.val * 2048 + n.val, by omega⟩ : Fin 16384) d) := by
  refine shapeCast_apply y h _ (ix2 (⟨b.val * 2048 + n.val, by omega⟩ : Fin 16384) d) ?_
  rw [Shape.rowMajor_val_three, Shape.rowMajor_val_two]
  rfl

/-- Block `p` of the projection of the flattened `x`, re-laid, is the projection at `(b, n, d)`. -/
theorem unflat_proj (p : Fin 3) (x : S3.Idx → EReal) (w : SW.Idx → EReal) (h1 : S3.ShapeCasts S2) (h2 : S2.ShapeCasts S3)
    (b : Fin 8) (n : Fin 2048) (d : Fin 512) :
    shapeCast S3 (projFlat p (shapeCast S2 x h1) w) h2 (ix3 b n d) = qkv x w p b n d := by
  rw [unflat_apply]
  unfold projFlat qkv
  refine Finset.sum_congr rfl fun e _ => ?_
  show shapeCast S2 x h1 (ix2 (⟨b.val * 2048 + n.val, by omega⟩ : Fin 16384) e) * w (ix2 e (col p d)) = _
  rw [flat_apply]

theorem unflat_projQ (x : S3.Idx → EReal) (w : SW.Idx → EReal) (h1 : S3.ShapeCasts S2) (h2 : S2.ShapeCasts S3) :
    shapeCast S3 (projFlatQ (shapeCast S2 x h1) w) h2 = qArr x w := by
  funext i
  obtain ⟨b, n, d, rfl⟩ : ∃ (b : Fin 8) (n : Fin 2048) (d : Fin 512), i = ix3 b n d := ⟨i 0, i 1, i 2, eq_ix3 i⟩
  rw [unflat_apply]
  show projFlat 0 (shapeCast S2 x h1) w (ix2 (⟨b.val * 2048 + n.val, by omega⟩ : Fin 16384) d) * scale = qkv x w 0 b n d * scale
  rw [← unflat_apply (projFlat 0 (shapeCast S2 x h1) w) h2 b n d, unflat_proj]

theorem unflat_projK (x : S3.Idx → EReal) (w : SW.Idx → EReal) (h1 : S3.ShapeCasts S2) (h2 : S2.ShapeCasts S3) :
    shapeCast S3 (projFlat 1 (shapeCast S2 x h1) w) h2 = kArr x w := by
  funext i
  obtain ⟨b, n, d, rfl⟩ : ∃ (b : Fin 8) (n : Fin 2048) (d : Fin 512), i = ix3 b n d := ⟨i 0, i 1, i 2, eq_ix3 i⟩
  exact unflat_proj 1 x w h1 h2 b n d

theorem unflat_projV (x : S3.Idx → EReal) (w : SW.Idx → EReal) (h1 : S3.ShapeCasts S2) (h2 : S2.ShapeCasts S3) :
    shapeCast S3 (projFlat 2 (shapeCast S2 x h1) w) h2 = vArr x w := by
  funext i
  obtain ⟨b, n, d, rfl⟩ : ∃ (b : Fin 8) (n : Fin 2048) (d : Fin 512), i = ix3 b n d := ⟨i 0, i 1, i 2, eq_ix3 i⟩
  exact unflat_proj 2 x w h1 h2 b n d

/-! ## The contents at each boundary of the run -/

variable (m : (ℓ : Loc nD τ sig) → Buf (Elt Ideal) ℓ) (ρ : Dev nD → PrngReg)

/-- The first launch reads the flattened `x`. -/
theorem entry0_x (c : Dev nD) :
    (V1 m ρ c main_v1 : S16384x512.Idx → EReal)
      = shapeCast S16384x512 (m ((c : Thread nD τ).loc main_arg0)) shapeCasts_S8x2048x512_S16384x512 := by
  show StableHlo.after hostOps0 (W0 m ρ c) (Proc.devRef .tc main_v1) = _
  after_results
  rfl

/-- The first launch reads the weight, its change of format the identity. -/
theorem entry0_w (c : Dev nD) :
    (V1 m ρ c main_v0 : S512x1536.Idx → EReal) = m ((c : Thread nD τ).loc main_arg1) := by
  show StableHlo.after hostOps0 (W0 m ρ c) (Proc.devRef .tc main_v0) = _
  after_results
  rfl

/-- After the first launch its three output arrays hold the scaled queries', the keys' and the values' projections of the
    flattened `x`. -/
theorem exit0_q (c : Dev nD) :
    (W2 m ρ c (Proc.devRef .tc main_v2_0) : S16384x512.Idx → EReal)
      = projFlatQ (shapeCast S16384x512 (m ((c : Thread nD τ).loc main_arg0)) shapeCasts_S8x2048x512_S16384x512) (m ((c : Thread nD τ).loc main_arg1)) := by
  refine (W2_arr m ρ c 2).trans ?_
  rw [Region0.q_final (V1 m ρ) c, entry0_x, entry0_w]

theorem exit0_k (c : Dev nD) :
    (W2 m ρ c (Proc.devRef .tc main_v2_1) : S16384x512.Idx → EReal)
      = projFlat 1 (shapeCast S16384x512 (m ((c : Thread nD τ).loc main_arg0)) shapeCasts_S8x2048x512_S16384x512) (m ((c : Thread nD τ).loc main_arg1)) := by
  refine (W2_arr m ρ c 3).trans ?_
  rw [Region0.k_final (V1 m ρ) c, entry0_x, entry0_w]

theorem exit0_v (c : Dev nD) :
    (W2 m ρ c (Proc.devRef .tc main_v2_2) : S16384x512.Idx → EReal)
      = projFlat 2 (shapeCast S16384x512 (m ((c : Thread nD τ).loc main_arg0)) shapeCasts_S8x2048x512_S16384x512) (m ((c : Thread nD τ).loc main_arg1)) := by
  refine (W2_arr m ρ c 4).trans ?_
  rw [Region0.v_final (V1 m ρ) c, entry0_x, entry0_w]

/-- The second launch reads the three outputs re-laid to batch × position × feature. -/
theorem entry1_q (c : Dev nD) :
    (V3 m ρ c main_v3 : S8x2048x512.Idx → EReal)
      = shapeCast S8x2048x512 (W2 m ρ c (Proc.devRef .tc main_v2_0)) shapeCasts_S16384x512_S8x2048x512 := by
  show StableHlo.after hostOps1 (W2 m ρ c) (Proc.devRef .tc main_v3) = _
  after_results
  rfl

theorem entry1_k (c : Dev nD) :
    (V3 m ρ c main_v4 : S8x2048x512.Idx → EReal)
      = shapeCast S8x2048x512 (W2 m ρ c (Proc.devRef .tc main_v2_1)) shapeCasts_S16384x512_S8x2048x512 := by
  show StableHlo.after hostOps1 (W2 m ρ c) (Proc.devRef .tc main_v4) = _
  after_results
  rfl

theorem entry1_v (c : Dev nD) :
    (V3 m ρ c main_v5 : S8x2048x512.Idx → EReal)
      = shapeCast S8x2048x512 (W2 m ρ c (Proc.devRef .tc main_v2_2)) shapeCasts_S16384x512_S8x2048x512 := by
  show StableHlo.after hostOps1 (W2 m ρ c) (Proc.devRef .tc main_v5) = _
  after_results
  rfl

/-- THE RESULT ARRAY after the run: attention of the scaled queries, the keys and the values of the two arguments. -/
theorem result_eq (c : Dev nD) :
    (W4 m ρ c (Proc.devRef .tc main_v6) : S8x2048x512.Idx → EReal)
      = attnK (qArr (m ((c : Thread nD τ).loc main_arg0)) (m ((c : Thread nD τ).loc main_arg1)))
          (kArr (m ((c : Thread nD τ).loc main_arg0)) (m ((c : Thread nD τ).loc main_arg1)))
          (vArr (m ((c : Thread nD τ).loc main_arg0)) (m ((c : Thread nD τ).loc main_arg1))) := by
  refine (W4_arr m ρ c 3).trans ?_
  rw [Region1.attn_final (V3 m ρ) c, entry1_q, entry1_k, entry1_v, exit0_q, exit0_k, exit0_v]
  rw [unflat_projQ, unflat_projK, unflat_projV]

end Cert.KernelIdeal.Glue

end
-- ==== Proof.RefValue.lean ====
import proofs.«414263_j11785390260643_3_alg».proof.Proof.Gen.ReferenceIdeal.Read
import proofs.«414263_j11785390260643_3_alg».proof.Proof.Spec

noncomputable section

namespace Cert.ReferenceIdeal.RefValue

open Cert.ReferenceIdeal Cert.ReferenceIdeal.Gen Cert.ReferenceIdeal.Read Cert.Spec
open Idealize.ShloMosaic Idealize.ShloMosaic.TcCoe Idealize.ShloMosaic.ValueIdx

/-! ## The fused projection and its three column blocks -/

/-- The fused projection at row (b, n), column c of the weight: the row of x against that column. -/
theorem proj_at (x0 : (⟨S8x2048x512, .f32⟩ : BufTy).Contents (Elt Ideal)) (x1 : (⟨S512x1536, .f32⟩ : BufTy).Contents (Elt Ideal))
    (b : Fin 8) (n : Fin 2048) (c : Fin 1536) :
    val_main_v0 (F := Ideal) x0 x1 (ix3 b n c) = ∑ e : Fin 512, x0 (ix3 b n e) * x1 (ix2 e c) := by
  rw [val_main_v0_apply]
  refine Finset.sum_congr rfl fun k _ => ?_
  have el : lidx_main_v0 (ix3 b n c) k = ix3 b n k :=
    funext fun a => Fin.ext (by match a with | ⟨0, _⟩ => rfl | ⟨1, _⟩ => rfl | ⟨2, _⟩ => rfl)
  have er : ridx_main_v0 (ix3 b n c) k = ix2 k c :=
    funext fun a => Fin.ext (by match a with | ⟨0, _⟩ => rfl | ⟨1, _⟩ => rfl)
  rw [el, er]

/-- The slice at column offset 0 reads column d of block 0 of the fused projection. -/
theorem slice0_idx (b : Fin 8) (n : Fin 2048) (d : Fin 512) : idx_main_v1 (ix3 b n d) = ix3 b n (col 0 d) :=
  funext fun a => Fin.ext (by
    match a with
    | ⟨0, _⟩ => rfl
    | ⟨1, _⟩ => rfl
    | ⟨2, _⟩ => show d.val = 512 * 0 + d.val; omega)

/-- The slice at column offset 512 reads column d of block 1. -/
theorem slice1_idx (b : Fin 8) (n : Fin 2048) (d : Fin 512) : idx_main_v2 (ix3 b n d) = ix3 b n (col 1 d) :=
  funext fun a => Fin.ext (by
    match a with
    | ⟨0, _⟩ => rfl
    | ⟨1, _⟩ => rfl
    | ⟨2, _⟩ => show 512 + d.val = 512 * 1 + d.val; omega)

/-- The slice at column offset 1024 reads column d of block 2. -/
theorem slice2_idx (b : Fin 8) (n : Fin 2048) (d : Fin 512) : idx_main_v3 (ix3 b n d) = ix3 b n (col 2 d) :=
  funext fun a => Fin.ext (by
    match a with
    | ⟨0, _⟩ => rfl
    | ⟨1, _⟩ => rfl
    | ⟨2, _⟩ => show 1024 + d.val = 512 * 2 + d.val; omega)

/-- The first slice is the query block of the projection. -/
theorem queries_at (x0 : (⟨S8x2048x512, .f32⟩ : BufTy).Contents (Elt Ideal)) (x1 : (⟨S512x1536, .f32⟩ : BufTy).Contents (Elt Ideal))
    (b : Fin 8) (n : Fin 2048) (d : Fin 512) :
    val_main_v1 (F := Ideal) x0 x1 (ix3 b n d) = qkv x0 x1 0 b n d := by
  rw [val_main_v1_apply, slice0_idx, proj_at]; rfl

/-- The second slice is the key block. -/
theorem keys_at (x0 : (⟨S8x2048x512, .f32⟩ : BufTy).Contents (Elt Ideal)) (x1 : (⟨S512x1536, .f32⟩ : BufTy).Contents (Elt Ideal))
    (b : Fin 8) (n : Fin 2048) (d : Fin 512) :
    val_main_v2 (F := Ideal) x0 x1 (ix3 b n d) = qkv x0 x1 1 b n d := by
  rw [val_main_v2_apply, slice1_idx, proj_at]; rfl

/-- The third slice is the value block. -/
theorem values_at (x0 : (⟨S8x2048x512, .f32⟩ : BufTy).Contents (Elt Ideal)) (x1 : (⟨S512x1536, .f32⟩ : BufTy).Contents (Elt Ideal))
    (b : Fin 8) (n : Fin 2048) (d : Fin 512) :
    val_main_v3 (F := Ideal) x0 x1 (ix3 b n d) = qkv x0 x1 2 b n d := by
  rw [val_main_v3_apply, slice2_idx, proj_at]; rfl

/-! ## The logits -/

/-- Query row i against key row j within batch b, the product scaled: the reference's logit. -/
theorem logits_at (x0 : (⟨S8x2048x512, .f32⟩ : BufTy).Contents (Elt Ideal)) (x1 : (⟨S512x1536, .f32⟩ : BufTy).Contents (Elt Ideal))
    (b : Fin 8) (i j : Fin 2048) :
    val_main_v6 (F := Ideal) x0 x1 (ix3 b i j) = logitR x0 x1 b i j := by
  rw [val_main_v6_apply, val_main_v4_apply, val_main_v5_apply, val_main_cst_apply]
  unfold logitR scale
  refine congrArg (· * _) (Finset.sum_congr rfl fun k _ => ?_)
  have el : lidx_main_v4 (ix3 b i j) k = ix3 b i k :=
    funext fun a => Fin.ext (by match a with | ⟨0, _⟩ => rfl | ⟨1, _⟩ => rfl | ⟨2, _⟩ => rfl)
  have er : ridx_main_v4 (ix3 b i j) k = ix3 b j k :=
    funext fun a => Fin.ext (by match a with | ⟨0, _⟩ => rfl | ⟨1, _⟩ => rfl | ⟨2, _⟩ => rfl)
  rw [el, er, queries_at, keys_at]

/-! ## The row maximum -/

/-- The reduced index (b, i) with coordinate k of the dropped last axis put back is (b, i, k). -/
theorem lift_last (h : S8x2048x2048.Reduces [2] S8x2048) (b : Fin 8) (i : Fin 2048) (k : Fin (S8x2048x2048.size 2)) :
    h.lift (ix2 b i) k = ix3 b i (⟨k.val, k.isLt⟩ : Fin 2048) := by
  funext c; apply Fin.ext
  fin_cases c <;> rfl

/-- The word 0xFF800000 is -∞. -/
theorem negInf_word : Ideal.ofBits .f32 0xFF800000#32 = (⊥ : EReal) := by
  simp [Ideal.ofBits, Ideal.ieee]

/-- The fold of the maximum from -∞ over the last axis is the row maximum of the logits. -/
theorem rowfold_at (x0 : (⟨S8x2048x512, .f32⟩ : BufTy).Contents (Elt Ideal)) (x1 : (⟨S512x1536, .f32⟩ : BufTy).Contents (Elt Ideal))
    (b : Fin 8) (i : Fin 2048) :
    val_main_v7 (F := Ideal) x0 x1 (ix2 b i) = rowMaxR x0 x1 b i := by
  unfold val_main_v7
  have h : S8x2048x2048.Reduces [2] S8x2048 := by decide
  rw [Host.reduce_eq_fold_single FloatOps.maximumf _ _ reducesTo_S8x2048x2048_S8x2048_d2 h h_S_]
  unfold rowMaxR
  have hf : (val_main_v6 (F := Ideal) x0 x1 ∘ h.lift (ix2 b i)) = fun j : Fin 2048 => logitR x0 x1 b i j :=
    funext fun k => (congrArg (val_main_v6 (F := Ideal) x0 x1) (lift_last h b i k)).trans (logits_at x0 x1 b i _)
  rw [hf, val_main_cst_0_apply]
  exact congrArg (fun z => Finset.fold max z (fun j : Fin 2048 => logitR x0 x1 b i j) (Finset.univ : Finset (Fin 2048))) negInf_word

/-- The maximum with a broadcast -∞ changes nothing. -/
theorem rowmax_at (x0 : (⟨S8x2048x512, .f32⟩ : BufTy).Contents (Elt Ideal)) (x1 : (⟨S512x1536, .f32⟩ : BufTy).Contents (Elt Ideal))
    (b : Fin 8) (i : Fin 2048) :
    val_main_v9 (F := Ideal) x0 x1 (ix2 b i) = rowMaxR x0 x1 b i := by
  rw [val_main_v9_apply, val_main_v8_apply, val_main_cst_1_apply, rowfold_at]
  show max (Ideal.ofBits .f32 0xFF800000#32) (rowMaxR x0 x1 b i) = rowMaxR x0 x1 b i
  rw [negInf_word]
  exact max_eq_right bot_le

/-! ## The exponentials, their row sum, the weights -/

/-- The row maximum broadcast back along the last axis. -/
theorem rowmax_bcast_at (x0 : (⟨S8x2048x512, .f32⟩ : BufTy).Contents (Elt Ideal)) (x1 : (⟨S512x1536, .f32⟩ : BufTy).Contents (Elt Ideal))
    (b : Fin 8) (i j : Fin 2048) :
    val_main_v11 (F := Ideal) x0 x1 (ix3 b i j) = rowMaxR x0 x1 b i := by
  rw [val_main_v11_apply, val_main_v10_apply]
  have e : idx_main_v10 (idx_main_v11 (ix3 b i j)) = ix2 b i :=
    funext fun a => Fin.ext (by match a with | ⟨0, _⟩ => rfl | ⟨1, _⟩ => rfl)
  rw [e, rowmax_at]

/-- The unnormalised weight: the exponential of the logit less its row maximum. -/
theorem exps_at (x0 : (⟨S8x2048x512, .f32⟩ : BufTy).Contents (Elt Ideal)) (x1 : (⟨S512x1536, .f32⟩ : BufTy).Contents (Elt Ideal))
    (b : Fin 8) (i j : Fin 2048) :
    val_main_v13 (F := Ideal) x0 x1 (ix3 b i j) = expR x0 x1 b i j := by
  rw [val_main_v13_apply, val_main_v12_apply, logits_at, rowmax_bcast_at]
  rfl

/-- The row sum from 0 of the unnormalised weights. -/
theorem rowsum_at (x0 : (⟨S8x2048x512, .f32⟩ : BufTy).Contents (Elt Ideal)) (x1 : (⟨S512x1536, .f32⟩ : BufTy).Contents (Elt Ideal))
    (b : Fin 8) (i : Fin 2048) :
    val_main_v14 (F := Ideal) x0 x1 (ix2 b i) = sumR x0 x1 b i := by
  rw [val_main_v14_apply, val_main_cst_2_apply]
  show Ideal.ofBits .f32 0x00000000#32 + _ = _
  rw [Ideal.ofBits_zero_f32, zero_add]
  unfold sumR
  refine Finset.sum_congr rfl fun k _ => ?_
  have e : idx_main_v14 (ix2 b i) k = ix3 b i k :=
    funext fun a => Fin.ext (by match a with | ⟨0, _⟩ => rfl | ⟨1, _⟩ => rfl | ⟨2, _⟩ => rfl)
  rw [e, exps_at]

/-- The row sum broadcast back along the last axis. -/
theorem rowsum_bcast_at (x0 : (⟨S8x2048x512, .f32⟩ : BufTy).Contents (Elt Ideal)) (x1 : (⟨S512x1536, .f32⟩ : BufTy).Contents (Elt Ideal))
    (b : Fin 8) (i j : Fin 2048) :
    val_main_v16 (F := Ideal) x0 x1 (ix3 b i j) = sumR x0 x1 b i := by
  rw [val_main_v16_apply, val_main_v15_apply]
  have e : idx_main_v15 (idx_main_v16 (ix3 b i j)) = ix2 b i :=
    funext fun a => Fin.ext (by match a with | ⟨0, _⟩ => rfl | ⟨1, _⟩ => rfl)
  rw [e, rowsum_at]

/-- The normalised weight: each exponential divided by its row sum. -/
theorem weights_at (x0 : (⟨S8x2048x512, .f32⟩ : BufTy).Contents (Elt Ideal)) (x1 : (⟨S512x1536, .f32⟩ : BufTy).Contents (Elt Ideal))
    (b : Fin 8) (i j : Fin 2048) :
    val_main_v17 (F := Ideal) x0 x1 (ix3 b i j) = Ideal.div (expR x0 x1 b i j) (sumR x0 x1 b i) := by
  rw [val_main_v17_apply, exps_at, rowsum_bcast_at]
  rfl

/-! ## The result -/

theorem ref_is_RG (x0 : (⟨S8x2048x512, .f32⟩ : BufTy).Contents (Elt Ideal)) (x1 : (⟨S512x1536, .f32⟩ : BufTy).Contents (Elt Ideal)) :
    val_main_v18 (F := Ideal) x0 x1 = RG x0 x1 := by
  funext i
  obtain ⟨b, n, d, rfl⟩ : ∃ (b : Fin 8) (n : Fin 2048) (d : Fin 512), i = ix3 b n d := ⟨i 0, i 1, i 2, eq_ix3 i⟩
  rw [val_main_v18_apply]
  show _ = ∑ j : Fin 2048, Ideal.div (expR x0 x1 b n j) (sumR x0 x1 b n) * qkv x0 x1 2 b j d
  refine Finset.sum_congr rfl fun j _ => ?_
  have el : lidx_main_v18 (ix3 b n d) j = ix3 b n j :=
    funext fun a => Fin.ext (by match a with | ⟨0, _⟩ => rfl | ⟨1, _⟩ => rfl | ⟨2, _⟩ => rfl)
  have er : ridx_main_v18 (ix3 b n d) j = ix3 b j d :=
    funext fun a => Fin.ext (by match a with | ⟨0, _⟩ => rfl | ⟨1, _⟩ => rfl | ⟨2, _⟩ => rfl)
  rw [el, er, weights_at, values_at]

end Cert.ReferenceIdeal.RefValue

end
-- ==== Proof.Algebra.lean ====
/-
  The one piece of real algebra of this certificate: on real inputs the scaled-queries form of attention equals
  the scaled-logits form.

  Fix a batch `b`, a query row `i` and a feature `d`, and let every entry of `x` and `w` be a real number. Then
  every projection `qkv x w p b n d` is a finite sum of products of reals, hence a real, and so is the temperature.
  * The logits agree: `∑ e, (q e · c) · k e = (∑ e, q e · k e) · c` in ℝ (distributivity, which fails at ±∞ and is the
    reason for the hypotheses).
  * Hence the two row maxima are one term, and a real: a maximum over the nonempty set of 2048 reals.
  * Hence the weights `exp (logit - max)` agree and are positive reals, and their sum `Z` is a positive real.
  * `(∑ j, E j · v j) / Z = ∑ j, (E j / Z) · v j` in ℝ, division by the nonzero real `Z` being the product with `1 / Z`.
-/
import proofs.«414263_j11785390260643_3_alg».proof.Proof.Spec

noncomputable section

namespace Cert.Spec

open Idealize.ShloMosaic Idealize.ShloMosaic.ValueIdx

/-! ## Finite sums and maxima of real numbers inside the extended reals -/

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum of finitely many reals, folded from -∞ over a nonempty set, is a real. -/
theorem fold_max_coe {ι : Type*} (s : Finset ι) (f : ι → ℝ) (hs : s.Nonempty) :
    ∃ m : ℝ, s.fold max (⊥ : EReal) (fun j => (f j : EReal)) = (m : EReal) := by
  classical
  induction s using Finset.induction_on with
  | empty => exact absurd hs Finset.not_nonempty_empty
  | insert a s ha ih =>
    rw [Finset.fold_insert ha]
    rcases s.eq_empty_or_nonempty with rfl | hne
    · exact ⟨f a, by rw [Finset.fold_empty, max_bot_right]⟩
    · obtain ⟨m, hm⟩ := ih hne
      refine ⟨max (f a) m, ?_⟩
      rw [hm]
      exact (EReal.coe_strictMono.monotone.map_max).symm

/-- The softmax temperature is a real number. -/
theorem scale_real : ∃ c : ℝ, scale = (c : EReal) := by
  have h1 : ((0x3D3504F3#32 : BitVec 32).extractLsb' 23 8).toNat = 122 := by decide
  unfold scale Ideal.ofBits Ideal.ieee
  simp only [h1]
  rw [if_neg (by decide), if_neg (by decide)]
  exact ⟨_, rfl⟩

/-! ## The softmax law over an abstract finite index set -/

/-- Dividing the weighted sum by the total weight is the same as weighting with the divided weights, for real
    weights of nonzero total: both sides are the real `(∑ j, E j · v j) / Z`. -/
theorem div_sum_mul {ι : Type*} [Fintype ι] (E v : ι → ℝ) (hZ : (∑ j, E j) ≠ 0) :
    Ideal.div (∑ j, (E j : EReal) * (v j : EReal)) (∑ j, (E j : EReal))
      = ∑ j, Ideal.div (E j : EReal) (∑ j, (E j : EReal)) * (v j : EReal) := by
  have hZc : (∑ j, (E j : EReal)) = ((∑ j, E j : ℝ) : EReal) := (coe_sum _ _).symm
  rw [hZc]
  simp only [Ideal.div_coe hZ, ← EReal.coe_mul, ← coe_sum]
  congr 1
  rw [Finset.sum_mul]
  refine Finset.sum_congr rfl (fun j _ => ?_)
  ring

/-! ## The specification's terms on real inputs -/

/-- The projection of real arrays, computed in ℝ. -/
def qkvR (xr : S3.Idx → ℝ) (wr : SW.Idx → ℝ) (p : Fin 3) (b : Fin 8) (n : Fin 2048) (d : Fin 512) : ℝ :=
  ∑ e : Fin 512, xr (ix3 b n e) * wr (ix2 e (col p d))

/-- The logit of real arrays with a real temperature, computed in ℝ. -/
def logitRe (xr : S3.Idx → ℝ) (wr : SW.Idx → ℝ) (c : ℝ) (b : Fin 8) (i j : Fin 2048) : ℝ :=
  (∑ e : Fin 512, qkvR xr wr 0 b i e * qkvR xr wr 1 b j e) * c

theorem qkv_coe (xr : S3.Idx → ℝ) (wr : SW.Idx → ℝ) (p : Fin 3) (b : Fin 8) (n : Fin 2048) (d : Fin 512) :
    qkv (fun i => (xr i : EReal)) (fun i => (wr i : EReal)) p b n d = (qkvR xr wr p b n d : EReal) := by
  simp only [qkv, qkvR, coe_sum, EReal.coe_mul]

theorem qArr_ix3 (x : S3.Idx → EReal) (w : SW.Idx → EReal) (b : Fin 8) (n : Fin 2048) (d : Fin 512) :
    qArr x w (ix3 b n d) = qkv x w 0 b n d * scale := rfl
theorem kArr_ix3 (x : S3.Idx → EReal) (w : SW.Idx → EReal) (b : Fin 8) (n : Fin 2048) (d : Fin 512) :
    kArr x w (ix3 b n d) = qkv x w 1 b n d := rfl
theorem vArr_ix3 (x : S3.Idx → EReal) (w : SW.Idx → EReal) (b : Fin 8) (n : Fin 2048) (d : Fin 512) :
    vArr x w (ix3 b n d) = qkv x w 2 b n d := rfl

/-- The kernel's logit (queries scaled first) is the real logit. -/
theorem logitK_coe (xr : S3.Idx → ℝ) (wr : SW.Idx → ℝ) (c : ℝ) (hc : scale = (c : EReal))
    (b : Fin 8) (i j : Fin 2048) :
    logitK (qArr (fun i => (xr i : EReal)) (fun i => (wr i : EReal)))
        (kArr (fun i => (xr i : EReal)) (fun i => (wr i : EReal))) b i j
      = (logitRe xr wr c b i j : EReal) := by
  simp only [logitK, qArr_ix3, kArr_ix3, qkv_coe, hc, ← EReal.coe_mul, ← coe_sum, logitRe]
  congr 1
  rw [Finset.sum_mul]
  refine Finset.sum_congr rfl (fun e _ => ?_)
  ring

/-- The reference's logit (product scaled afterwards) is the same real logit. -/
theorem logitR_coe (xr : S3.Idx → ℝ) (wr : SW.Idx → ℝ) (c : ℝ) (hc : scale = (c : EReal))
    (b : Fin 8) (i j : Fin 2048) :
    logitR (fun i => (xr i : EReal)) (fun i => (wr i : EReal)) b i j = (logitRe xr wr c b i j : EReal) := by
  simp only [logitR, qkv_coe, hc, ← EReal.coe_mul, ← coe_sum, logitRe]

/-! ## The kernel's form against the reference's -/

theorem kernel_eq_ref (x : S3.Idx → EReal) (w : SW.Idx → EReal)
    (hx : ∀ i, ∃ r : ℝ, x i = (r : EReal)) (hw : ∀ i, ∃ r : ℝ, w i = (r : EReal)) :
    attnK (qArr x w) (kArr x w) (vArr x w) = RG x w := by
  -- real witnesses for every entry and for the temperature
  choose xr hxr using hx
  choose wr hwr using hw
  obtain rfl : x = fun i => (xr i : EReal) := funext hxr
  obtain rfl : w = fun i => (wr i : EReal) := funext hwr
  obtain ⟨c, hc⟩ := scale_real
  funext idx
  obtain ⟨b, i, d, rfl⟩ : ∃ (b : Fin 8) (i : Fin 2048) (d : Fin 512), idx = ix3 b i d :=
    ⟨idx 0, idx 1, idx 2, eq_ix3 idx⟩
  -- the row maximum of the real logits is a real
  obtain ⟨m, hm⟩ := fold_max_coe (Finset.univ : Finset (Fin 2048)) (fun j => logitRe xr wr c b i j)
    Finset.univ_nonempty
  -- both programs' weights are the coerced positive reals exp (logit - max)
  have hK : ∀ j : Fin 2048, expK (qArr (fun i => (xr i : EReal)) (fun i => (wr i : EReal)))
      (kArr (fun i => (xr i : EReal)) (fun i => (wr i : EReal))) b i j
        = ((Real.exp (logitRe xr wr c b i j - m) : ℝ) : EReal) := by
    intro j
    simp only [expK, rowMaxK, logitK_coe xr wr c hc, hm, ← EReal.coe_sub, Ideal.exp_coe]
  have hR : ∀ j : Fin 2048, expR (fun i => (xr i : EReal)) (fun i => (wr i : EReal)) b i j
        = ((Real.exp (logitRe xr wr c b i j - m) : ℝ) : EReal) := by
    intro j
    simp only [expR, rowMaxR, logitR_coe xr wr c hc, hm, ← EReal.coe_sub, Ideal.exp_coe]
  have hZ : (∑ j : Fin 2048, Real.exp (logitRe xr wr c b i j - m)) ≠ 0 :=
    (Finset.sum_pos (fun j _ => Real.exp_pos _) Finset.univ_nonempty).ne'
  show Ideal.div (∑ j : Fin 2048, expK _ _ b i j * vArr _ _ (ix3 b j d)) (∑ j : Fin 2048, expK _ _ b i j)
    = ∑ j : Fin 2048, Ideal.div (expR _ _ b i j) (sumR _ _ b i) * qkv _ _ 2 b j d
  simp only [sumR, hK, hR, vArr_ix3, qkv_coe]
  exact div_sum_mul _ _ hZ

end Cert.Spec

end
-- ==== Proof.Finite.lean ====
import proofs.«414263_j11785390260643_3_alg».proof.Pre_finite_inputs
import proofs.«414263_j11785390260643_3_alg».proof.Proof.Gen.Pre_finite_inputs
import Idealize.ShloMosaic.PureOps.Ideal
import Idealize.ShloMosaic.Lib.ReduceAll
import Idealize.ShloMosaic.Lib.ValueIdx

noncomputable section

namespace Cert.Finite

open Idealize.ShloMosaic Idealize.ShloMosaic.ValueIdx Cert.Pre_finite_inputs

/-- The rank-0 shape has exactly one index: there is no axis at which two indices could differ. -/
instance subsingleton_idx_rank0 : Subsingleton S_.Idx := ⟨fun a b => funext fun d => d.elim0⟩

/-- The word 0x7F800000 is the binary32 pattern of +∞. -/
theorem inf_bits : Ideal.ofBits .f32 0x7F800000#32 = (⊤ : EReal) := by
  simp [Ideal.ofBits, Ideal.ieee]

/-- An extended real whose absolute value `max a (-a)` lies strictly below +∞ is a real number:
    at ⊥ the negation is ⊤, at ⊤ the entry itself is, and in both cases the maximum is ⊤. -/
theorem real_of_abs_lt (a : EReal)
    (h : Ideal.cmp .olt (max a (-a)) (Ideal.ofBits .f32 0x7F800000#32) = 1#1) : ∃ r : ℝ, a = (r : EReal) := by
  rw [inf_bits] at h
  induction a using EReal.rec with
  | bot => simp [Ideal.cmp] at h
  | coe r => exact ⟨r, rfl⟩
  | top => simp [Ideal.cmp] at h

theorem real_of_pre (x : FVec Ideal S8x2048x512 .f32) (w : FVec Ideal S512x1536 .f32)
    (h : Cert.Pre_finite_inputs.fn (F := Ideal) x w = fun _ => 1#1) :
    (∀ i, ∃ r : ℝ, x i = (r : EReal)) ∧ (∀ i, ∃ r : ℝ, w i = (r : EReal)) := by
  have h0 := congrFun h ValueIdx.ix0
  unfold Cert.Pre_finite_inputs.fn at h0
  dsimp only at h0
  obtain ⟨hx, hw⟩ := IntOp.andi_eq_one.1 h0
  exact ⟨fun i => real_of_abs_lt (x i) (Host.reduce_andi_all _ _ _ _ ix0 hx i),
    fun i => real_of_abs_lt (w i) (Host.reduce_andi_all _ _ _ _ ix0 hw i)⟩

end Cert.Finite

end
-- ==== Proof.lean ====
/- The proof of `Cert.Claim`: a two-launch attention kernel against its jnp reference, equal over the extended reals.

   Both programs project `x : [8, 2048, 512]` by the fused weight `w : [512, 1536]` into queries, keys and values and
   return, for every batch `b` and query row `i`, the softmax-weighted sum of the value rows. They differ in two places,
   each an instance of distributivity: the kernel scales the queries before the logits, `∑ e, (q·c)·k`, where the
   reference scales the logits, `(∑ e, q·k)·c`; and the kernel divides the weighted sum by the row sum of the
   weights, `(∑ j, E·v) / Z`, where the reference divides each weight first, `∑ j, (E / Z)·v`. On the extended reals
   distributivity fails at the infinities, so the precondition is used: every input entry is a real (`Finite`), hence
   so is every projection, logit and weight, the row sum is a positive real, and the two forms agree (`Algebra`).

   The kernel's side: the run ends with the result array at what the second launch's write-backs leave
   (`KernelRun`); each launch's output arrays are read off its blocks (`Region0`: the three projection blocks of the
   flattened `x`; `Region1`: attention of three arrays) and chained through the row-major reshapes between them
   (`Glue`). The reference's side: its run's result term, read one operation at a time, is the specification's
   `RG` (`RefValue`). The frames of the two kernel programs are the launch theorem over their regions; the
   reference's is its run with the result dropped; the idealization rewrote nothing, so `preserves` is `True`. -/
import proofs.«414263_j11785390260643_3_alg».proof.Defs
import proofs.«414263_j11785390260643_3_alg».proof.Proof.Gen.Kernel
import proofs.«414263_j11785390260643_3_alg».proof.Proof.Gen.Kernel.Frame
import proofs.«414263_j11785390260643_3_alg».proof.Proof.Gen.KernelIdeal
import proofs.«414263_j11785390260643_3_alg».proof.Proof.Gen.KernelIdeal.Frame
import proofs.«414263_j11785390260643_3_alg».proof.Proof.Gen.ReferenceIdeal
import proofs.«414263_j11785390260643_3_alg».proof.Proof.Gen.ReferenceIdeal.Run
import proofs.«414263_j11785390260643_3_alg».proof.Proof.Gen.ReferenceIdeal.Read
import proofs.«414263_j11785390260643_3_alg».proof.Proof.Gen.Pre_finite_inputs
import proofs.«414263_j11785390260643_3_alg».proof.Proof.KernelRun
import proofs.«414263_j11785390260643_3_alg».proof.Proof.Glue
import proofs.«414263_j11785390260643_3_alg».proof.Proof.RefValue
import proofs.«414263_j11785390260643_3_alg».proof.Proof.Algebra
import proofs.«414263_j11785390260643_3_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on `x` and `w`, both of real entries, the two programs end with the same result array:
    the reference's form `RG x w`, which the kernel's form `attnK (qArr x w) (kArr x w) (vArr x w)` equals on reals. -/
theorem algebraic : Cert.algebraic_KernelIdeal_ReferenceIdeal := by
  intro m ρ m' ρ' hpre hagree
  refine ⟨fun c => Cert.Spec.RG (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun r h c => ⟨(h c).1.trans ?_, (h c).2⟩)
      (Cert.KernelIdeal.GenRun.run_v6 (F := Ideal) m ρ)
    obtain ⟨hx, hw⟩ := Cert.Finite.real_of_pre _ _ (hpre c)
    exact (Cert.KernelIdeal.Glue.result_eq m ρ c).trans (Cert.Spec.kernel_eq_ref _ _ hx hw)
  · refine (θ_run Cert.ReferenceIdeal.defs _ _).mono (fun r h c => ⟨(h c).1.trans ?_, (h c).2⟩)
      (Cert.ReferenceIdeal.Value.run (F := Ideal) m' ρ')
    rw [(hagree c).1, (hagree c).2]
    exact (Cert.ReferenceIdeal.Read.val_main_v18_eq _ _).trans (Cert.ReferenceIdeal.RefValue.ref_is_RG _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
